-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S256x121 : Shape := ⟨2, ![256, 121]⟩
abbrev S121 : Shape := ⟨1, ![121]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x121 : S_.BroadcastsInDim S256x121 (![] : Fin 0 → Fin S256x121.rank)
  reducesTo_S256x121_S_d0_1 : S256x121.ReducesTo [0, 1] S_
  bcast_S_S121 : S_.BroadcastsInDim S121 (![] : Fin 0 → Fin S121.rank)
  reducesTo_S121_S_d0 : S121.ReducesTo [0] S_

variable [Facts]

def fn_part2 {F : FTy → Type} [FloatOps F] (main_arg8 : FVec F S256x121 .f32) (main_arg9 : FVec F S121 .f32) (main_arg10 : FVec F S256x121 .f32) (main_v33 : IVec S_ 1) : IVec S_ 1 :=
  let main_v34 : FVec F S256x121 .f32 := Host.absf main_arg8
  let main_cst_12 : FVec F S_ .f32 := constant S_ .f32 0x7F800000#32
  let main_v35 : FVec F S256x121 .f32 := broadcastInDim S256x121 ![] bcast_S_S256x121 main_cst_12
  let main_v36 : IVec S256x121 1 := cmpf .olt main_v34 main_v35
  let main_c_13 : IVec S_ 1 := constantI S_ 1 1#1
  let main_v37 : IVec S_ 1 := (fun x v => Host.reduce IntOp.andi x v reducesTo_S256x121_S_d0_1 h_S_) main_v36 main_c_13
  let main_v38 : IVec S_ 1 := andi main_v33 main_v37
  let main_v39 : FVec F S121 .f32 := Host.absf main_arg9
  let main_cst_14 : FVec F S_ .f32 := constant S_ .f32 0x7F800000#32
  let main_v40 : FVec F S121 .f32 := broadcastInDim S121 ![] bcast_S_S121 main_cst_14
  let main_v41 : IVec S121 1 := cmpf .olt main_v39 main_v40
  let main_c_15 : IVec S_ 1 := constantI S_ 1 1#1
  let main_v42 : IVec S_ 1 := (fun x v => Host.reduce IntOp.andi x v reducesTo_S121_S_d0 h_S_) main_v41 main_c_15
  let main_v43 : IVec S_ 1 := andi main_v38 main_v42
  let main_v44 : FVec F S256x121 .f32 := Host.absf main_arg10
  let main_cst_16 : FVec F S_ .f32 := constant S_ .f32 0x7F800000#32
  let main_v45 : FVec F S256x121 .f32 := broadcastInDim S256x121 ![] bcast_S_S256x121 main_cst_16
  let main_v46 : IVec S256x121 1 := cmpf .olt main_v44 main_v45
  let main_c_17 : IVec S_ 1 := constantI S_ 1 1#1
  let main_v47 : IVec S_ 1 := (fun x v => Host.reduce IntOp.andi x v reducesTo_S256x121_S_d0_1 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x256 .f32) (main_arg8 : FVec F S256x121 .f32) (main_arg9 : FVec F S121 .f32) (main_arg10 : FVec F S256x121 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x256 .f32) (main_arg1 : IVec S2x400000 32) (main_arg2 : FVec F S256x256 .f32) (main_arg3 : FVec F S256 .f32) (main_arg4 : FVec F S256x256 .f32) (main_arg5 : FVec F S256x256 .f32) (main_arg6 : FVec F S256 .f32) (main_arg7 : FVec F S256x256 .f32) (main_arg8 : FVec F S256x121 .f32) (main_arg9 : FVec F S121 .f32) (main_arg10 : FVec F S256x121 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_v13 main_v16
-- ==== Kernel.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S256x121 : Shape := ⟨2, ![256, 121]⟩
abbrev S121 : Shape := ⟨1, ![121]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S450000x256 : Shape := ⟨2, ![450000, 256]⟩
abbrev S1x256 : Shape := ⟨2, ![1, 256]⟩
abbrev S5000x256 : Shape := ⟨2, ![5000, 256]⟩
abbrev S1x121 : Shape := ⟨2, ![1, 121]⟩
abbrev S50000x121 : Shape := ⟨2, ![50000, 121]⟩
abbrev S5000x121 : Shape := ⟨2, ![5000, 121]⟩

abbrev nBuf : Space → Nat
  | .hbm => 92
  | .vmem => 27
  | .smem => 0
  | _ => 0

abbrev bufTy : (tb : Table) → Fin (tcTables nBuf tb) → BufTy
  | .hbm, ⟨0, _⟩ => ⟨S50000x256, .f32⟩
  | .hbm, ⟨1, _⟩ => ⟨S2x400000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x121, .f32⟩
  | .hbm, ⟨9, _⟩ => ⟨S121, .f32⟩
  | .hbm, ⟨10, _⟩ => ⟨S256x121, .f32⟩
  | .hbm, ⟨11, _⟩ => ⟨S50000, .i32⟩
  | .hbm, ⟨12, _⟩ => ⟨S1x400000, .i32⟩
  | .hbm, ⟨13, _⟩ => ⟨S400000, .i32⟩
  | .hbm, ⟨14, _⟩ => ⟨S450000, .i32⟩
  | .hbm, ⟨15, _⟩ => ⟨S1x400000, .i32⟩
  | .hbm, ⟨16, _⟩ => ⟨S400000, .i32⟩
  | .hbm, ⟨17, _⟩ => ⟨S450000, .i32⟩
  | .hbm, ⟨18, _⟩ => ⟨S_, .f32⟩
  | .hbm, ⟨19, _⟩ => ⟨S450000, .f32⟩
  | .hbm, ⟨20, _⟩ => ⟨S_, .f32⟩
  | .hbm, ⟨21, _⟩ => ⟨S50000, .f32⟩
  | .hbm, ⟨22, _⟩ => ⟨S450000x1, .i32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S450000, .i32⟩
  | .hbm, ⟨33, _⟩ => ⟨S450000, .i1⟩
  | .hbm, ⟨34, _⟩ => ⟨S_, .i32⟩
  | .hbm, ⟨35, _⟩ => ⟨S450000, .i32⟩
  | .hbm, ⟨36, _⟩ => ⟨S450000, .i32⟩
  | .hbm, ⟨37, _⟩ => ⟨S450000, .i32⟩
  | .hbm, ⟨38, _⟩ => ⟨S450000x1, .i32⟩
  | .hbm, ⟨39, _⟩ => ⟨S450000, .f32⟩
  | .hbm, ⟨40, _⟩ => ⟨S450000x1, .f32⟩
  | .hbm, ⟨41, _⟩ => ⟨S_, .i32⟩
  | .hbm, ⟨42, _⟩ => ⟨S450000, .i32⟩
  | .hbm, ⟨43, _⟩ => ⟨S450000, .i1⟩
  | .hbm, ⟨44, _⟩ => ⟨S_, .i32⟩
  | .hbm, ⟨45, _⟩ => ⟨S450000, .i32⟩
  | .hbm, ⟨46, _⟩ => ⟨S450000, .i32⟩
  | .hbm, ⟨47, _⟩ => ⟨S450000, .i32⟩
  | .hbm, ⟨48, _⟩ => ⟨S450000x1, .i32⟩
  | .hbm, ⟨49, _⟩ => ⟨S450000x256, .f32⟩
  | .hbm, ⟨50, _⟩ => ⟨S450000x256, .f32⟩
  | .hbm, ⟨51, _⟩ => ⟨S450000x256, .f32⟩
  | .hbm, ⟨52, _⟩ => ⟨S_, .f32⟩
  | .hbm, ⟨53, _⟩ => ⟨S50000x256, .f32⟩
  | .hbm, ⟨54, _⟩ => ⟨S450000x1, .i32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S_, .i32⟩
  | .hbm, ⟨59, _⟩ => ⟨S450000, .i32⟩
  | .hbm, ⟨60, _⟩ => ⟨S450000, .i1⟩
  | .hbm, ⟨61, _⟩ => ⟨S_, .i32⟩
  | .hbm, ⟨62, _⟩ => ⟨S450000, .i32⟩
  | .hbm, ⟨63, _⟩ => ⟨S450000, .i32⟩
  | .hbm, ⟨64, _⟩ => ⟨S450000, .i32⟩
  | .hbm, ⟨65, _⟩ => ⟨S450000x1, .i32⟩
  | .hbm, ⟨66, _⟩ => ⟨S450000x256, .f32⟩
  | .hbm, ⟨67, _⟩ => ⟨S450000x256, .f32⟩
  | .hbm, ⟨68, _⟩ => ⟨S450000x256, .f32⟩
  | .hbm, ⟨69, _⟩ => ⟨S_, .f32⟩
  | .hbm, ⟨70, _⟩ => ⟨S50000x256, .f32⟩
  | .hbm, ⟨71, _⟩ => ⟨S450000x1, .i32⟩
  | .hbm, ⟨72, _⟩ => ⟨S50000x256, .f32⟩
  | .hbm, ⟨73, _⟩ => ⟨S1x256, .f32⟩
  | .hbm, ⟨74, _⟩ => ⟨S50000x256, .f32⟩
  | .hbm, ⟨75, _⟩ => ⟨S_, .i32⟩
  | .hbm, ⟨76, _⟩ => ⟨S450000, .i32⟩
  | .hbm, ⟨77, _⟩ => ⟨S450000, .i1⟩
  | .hbm, ⟨78, _⟩ => ⟨S_, .i32⟩
  | .hbm, ⟨79, _⟩ => ⟨S450000, .i32⟩
  | .hbm, ⟨80, _⟩ => ⟨S450000, .i32⟩
  | .hbm, ⟨81, _⟩ => ⟨S450000, .i32⟩
  | .hbm, ⟨82, _⟩ => ⟨S450000x1, .i32⟩
  | .hbm, ⟨83, _⟩ => ⟨S450000x256, .f32⟩
  | .hbm, ⟨84, _⟩ => ⟨S450000x256, .f32⟩
  | .hbm, ⟨85, _⟩ => ⟨S450000x256, .f32⟩
  | .hbm, ⟨86, _⟩ => ⟨S_, .f32⟩
  | .hbm, ⟨87, _⟩ => ⟨S50000x256, .f32⟩
  | .hbm, ⟨88, _⟩ => ⟨S450000x1, .i32⟩
  | .hbm, ⟨89, _⟩ => ⟨S50000x256, .f32⟩
  | .hbm, ⟨90, _⟩ => ⟨S1x121, .f32⟩
  | .hbm, ⟨91, _⟩ => ⟨S50000x121, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S256x121, .f32⟩
  | .local _ .vmem, ⟨23, _⟩ => ⟨S256x121, .f32⟩
  | .local _ .vmem, ⟨24, _⟩ => ⟨S1x121, .f32⟩
  | .local _ .vmem, ⟨25, _⟩ => ⟨S5000x121, .f32⟩
  | .local _ .vmem, ⟨26, _⟩ => ⟨S5000x121, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x121 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x121 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x121 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x121 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  shapeCasts_S121_S1x121 : S121.ShapeCasts S1x121
  inb_S256x121_S256x121_0_0 : ∀ a, (![0, 0] : Fin 2 → Nat) a + S256x121.size a ≤ S256x121.size a
  h_S256x121 : 0 < S256x121.numel
  inb_S1x121_S1x121_0_0 : ∀ a, (![0, 0] : Fin 2 → Nat) a + S1x121.size a ≤ S1x121.size a
  h_S1x121 : 0 < S1x121.numel
  shapeCasts_S1x121_S1x121 : S1x121.ShapeCasts S1x121
  broadcasts_S1x121_S5000x121 : S1x121.Broadcasts S5000x121
  inb_S5000x121_S5000x121_0_0 : ∀ a, (![0, 0] : Fin 2 → Nat) a + S5000x121.size a ≤ S5000x121.size a
  h_S5000x121 : 0 < S5000x121.numel
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S5000x256_S256x256_S5000x256_1_0_0_1_n_n_wf : DotDims.WF S5000x256 S256x256 S5000x256 [1] [0] [0] [1] [] []
  dot_S5000x256_S256x121_S5000x121_1_0_0_1_n_n_wf : DotDims.WF S5000x256 S256x121 S5000x121 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S50000x256.size a
  hwx0_1 : ∀ i : grid0.Coords, EltTy.bits .f32 = 32 ∨ (Rect.block (s := S50000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x121.size a ≤ S256x121.size a
  hwx2_2 : ∀ i : grid2.Coords, EltTy.bits .f32 = 32 ∨ (Rect.block (s := S256x121) S256x121.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x121.size a ≤ S256x121.size a
  hwx2_3 : ∀ i : grid2.Coords, EltTy.bits .f32 = 32 ∨ (Rect.block (s := S256x121) S256x121.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x121.size a ≤ S1x121.size a
  hwx2_4 : ∀ i : grid2.Coords, EltTy.bits .f32 = 32 ∨ (Rect.block (s := S1x121) S1x121.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x121.size a ≤ S50000x121.size a
  hwx2_5 : ∀ i : grid2.Coords, EltTy.bits .f32 = 32 ∨ (Rect.block (s := S50000x121) S5000x121.size (cc2_transform_5 i) (hinb2_5 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x121_S5000x121_1_0_0_1_n_n : DotDims S5000x256 S256x121 S5000x121 where
  lhsContracting := [1]
  rhsContracting := [0]
  lhsNonContracting := [0]
  rhsNonContracting := [1]
  lhsBatch := []
  rhsBatch := []
  wf := dot_S5000x256_S256x121_S5000x121_1_0_0_1_n_n_wf

abbrev win0_0 : Pipeline.Window sig grid0 :=
  Pipeline.Window.ofSpec (Memref.whole main_v33) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x121.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x121.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x121.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S5000x121.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S256x121 : Shape := ⟨2, ![256, 121]⟩
abbrev S121 : Shape := ⟨1, ![121]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S450000x256 : Shape := ⟨2, ![450000, 256]⟩
abbrev S1x256 : Shape := ⟨2, ![1, 256]⟩
abbrev S50000x121 : Shape := ⟨2, ![50000, 121]⟩
abbrev S1x121 : Shape := ⟨2, ![1, 121]⟩

abbrev nBuf : Space → Nat
  | .hbm => 121
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x400000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x121, .f32⟩
  | .hbm, ⟨9, _⟩ => ⟨S121, .f32⟩
  | .hbm, ⟨10, _⟩ => ⟨S256x121, .f32⟩
  | .hbm, ⟨11, _⟩ => ⟨S50000, .i32⟩
  | .hbm, ⟨12, _⟩ => ⟨S1x400000, .i32⟩
  | .hbm, ⟨13, _⟩ => ⟨S400000, .i32⟩
  | .hbm, ⟨14, _⟩ => ⟨S450000, .i32⟩
  | .hbm, ⟨15, _⟩ => ⟨S1x400000, .i32⟩
  | .hbm, ⟨16, _⟩ => ⟨S400000, .i32⟩
  | .hbm, ⟨17, _⟩ => ⟨S450000, .i32⟩
  | .hbm, ⟨18, _⟩ => ⟨S_, .f32⟩
  | .hbm, ⟨19, _⟩ => ⟨S450000, .f32⟩
  | .hbm, ⟨20, _⟩ => ⟨S_, .f32⟩
  | .hbm, ⟨21, _⟩ => ⟨S50000, .f32⟩
  | .hbm, ⟨22, _⟩ => ⟨S450000x1, .i32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S450000, .i32⟩
  | .hbm, ⟨33, _⟩ => ⟨S450000, .i1⟩
  | .hbm, ⟨34, _⟩ => ⟨S_, .i32⟩
  | .hbm, ⟨35, _⟩ => ⟨S450000, .i32⟩
  | .hbm, ⟨36, _⟩ => ⟨S450000, .i32⟩
  | .hbm, ⟨37, _⟩ => ⟨S450000, .i32⟩
  | .hbm, ⟨38, _⟩ => ⟨S450000x1, .i32⟩
  | .hbm, ⟨39, _⟩ => ⟨S450000, .f32⟩
  | .hbm, ⟨40, _⟩ => ⟨S450000x1, .f32⟩
  | .hbm, ⟨41, _⟩ => ⟨S_, .i32⟩
  | .hbm, ⟨42, _⟩ => ⟨S450000, .i32⟩
  | .hbm, ⟨43, _⟩ => ⟨S450000, .i1⟩
  | .hbm, ⟨44, _⟩ => ⟨S_, .i32⟩
  | .hbm, ⟨45, _⟩ => ⟨S450000, .i32⟩
  | .hbm, ⟨46, _⟩ => ⟨S450000, .i32⟩
  | .hbm, ⟨47, _⟩ => ⟨S450000, .i32⟩
  | .hbm, ⟨48, _⟩ => ⟨S450000x1, .i32⟩
  | .hbm, ⟨49, _⟩ => ⟨S450000x256, .f32⟩
  | .hbm, ⟨50, _⟩ => ⟨S450000x256, .f32⟩
  | .hbm, ⟨51, _⟩ => ⟨S450000x256, .f32⟩
  | .hbm, ⟨52, _⟩ => ⟨S_, .f32⟩
  | .hbm, ⟨53, _⟩ => ⟨S50000x256, .f32⟩
  | .hbm, ⟨54, _⟩ => ⟨S450000x1, .i32⟩
  | .hbm, ⟨55, _⟩ => ⟨S50000x256, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S_, .i32⟩
  | .hbm, ⟨66, _⟩ => ⟨S450000, .i32⟩
  | .hbm, ⟨67, _⟩ => ⟨S450000, .i1⟩
  | .hbm, ⟨68, _⟩ => ⟨S_, .i32⟩
  | .hbm, ⟨69, _⟩ => ⟨S450000, .i32⟩
  | .hbm, ⟨70, _⟩ => ⟨S450000, .i32⟩
  | .hbm, ⟨71, _⟩ => ⟨S450000, .i32⟩
  | .hbm, ⟨72, _⟩ => ⟨S450000x1, .i32⟩
  | .hbm, ⟨73, _⟩ => ⟨S450000x256, .f32⟩
  | .hbm, ⟨74, _⟩ => ⟨S450000x256, .f32⟩
  | .hbm, ⟨75, _⟩ => ⟨S450000x256, .f32⟩
  | .hbm, ⟨76, _⟩ => ⟨S_, .f32⟩
  | .hbm, ⟨77, _⟩ => ⟨S50000x256, .f32⟩
  | .hbm, ⟨78, _⟩ => ⟨S450000x1, .i32⟩
  | .hbm, ⟨79, _⟩ => ⟨S50000x256, .f32⟩
  | .hbm, ⟨80, _⟩ => ⟨S50000x256, .f32⟩
  | .hbm, ⟨81, _⟩ => ⟨S1x256, .f32⟩
  | .hbm, ⟨82, _⟩ => ⟨S50000x256, .f32⟩
  | .hbm, ⟨83, _⟩ => ⟨S50000x256, .f32⟩
  | .hbm, ⟨84, _⟩ => ⟨S50000x256, .f32⟩
  | .hbm, ⟨85, _⟩ => ⟨S50000x256, .f32⟩
  | .hbm, ⟨86, _⟩ => ⟨S_, .f32⟩
  | .hbm, ⟨87, _⟩ => ⟨S50000x256, .f32⟩
  | .hbm, ⟨88, _⟩ => ⟨S50000x256, .f32⟩
  | .hbm, ⟨89, _⟩ => ⟨S_, .i32⟩
  | .hbm, ⟨90, _⟩ => ⟨S450000, .i32⟩
  | .hbm, ⟨91, _⟩ => ⟨S450000, .i1⟩
  | .hbm, ⟨92, _⟩ => ⟨S_, .i32⟩
  | .hbm, ⟨93, _⟩ => ⟨S450000, .i32⟩
  | .hbm, ⟨94, _⟩ => ⟨S450000, .i32⟩
  | .hbm, ⟨95, _⟩ => ⟨S450000, .i32⟩
  | .hbm, ⟨96, _⟩ => ⟨S450000x1, .i32⟩
  | .hbm, ⟨97, _⟩ => ⟨S450000x256, .f32⟩
  | .hbm, ⟨98, _⟩ => ⟨S450000x256, .f32⟩
  | .hbm, ⟨99, _⟩ => ⟨S450000x256, .f32⟩
  | .hbm, ⟨100, _⟩ => ⟨S_, .f32⟩
  | .hbm, ⟨101, _⟩ => ⟨S50000x256, .f32⟩
  | .hbm, ⟨102, _⟩ => ⟨S450000x1, .i32⟩
  | .hbm, ⟨103, _⟩ => ⟨S50000x256, .f32⟩
  | .hbm, ⟨104, _⟩ => ⟨S50000x121, .f32⟩
  | .hbm, ⟨105, _⟩ => ⟨S1x121, .f32⟩
  | .hbm, ⟨106, _⟩ => ⟨S50000x121, .f32⟩
  | .hbm, ⟨107, _⟩ => ⟨S50000x121, .f32⟩
  | .hbm, ⟨108, _⟩ => ⟨S50000x121, .f32⟩
  | .hbm, ⟨109, _⟩ => ⟨S50000x121, .f32⟩
  | .hbm, ⟨110, _⟩ => ⟨S_, .f32⟩
  | .hbm, ⟨111, _⟩ => ⟨S50000x121, .f32⟩
  | .hbm, ⟨112, _⟩ => ⟨S50000x121, .f32⟩
  | .hbm, ⟨113, _⟩ => ⟨S50000x121, .f32⟩
  | .hbm, ⟨114, _⟩ => ⟨S50000x121, .f32⟩
  | .hbm, ⟨115, _⟩ => ⟨S_, .f32⟩
  | .hbm, ⟨116, _⟩ => ⟨S50000x121, .f32⟩
  | .hbm, ⟨117, _⟩ => ⟨S50000x121, .f32⟩
  | .hbm, ⟨118, _⟩ => ⟨S_, .f32⟩
  | .hbm, ⟨119, _⟩ => ⟨S50000x121, .f32⟩
  | .hbm, ⟨120, _⟩ => ⟨S50000x121, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call1_cst : Ref sig .tc := ⟨.hbm, 62, rfl⟩
abbrev main_call1_v0 : Ref sig .tc := ⟨.hbm, 63, rfl⟩
abbrev main_v40 : Ref sig .tc := ⟨.hbm, 64, rfl⟩
abbrev main_c_7 : Ref sig .tc := ⟨.hbm, 65, rfl⟩
abbrev main_v41 : Ref sig .tc := ⟨.hbm, 66, rfl⟩
abbrev main_v42 : Ref sig .tc := ⟨.hbm, 67, rfl⟩
abbrev main_c_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call2_cst : Ref sig .tc := ⟨.hbm, 86, rfl⟩
abbrev main_call2_v0 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_12 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_call3_cst : Ref sig .tc := ⟨.hbm, 110, rfl⟩
abbrev main_call3_v0 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_13 : Ref sig .tc := ⟨.hbm, 115, rfl⟩
abbrev main_v81 : Ref sig .tc := ⟨.hbm, 116, rfl⟩
abbrev main_v82 : Ref sig .tc := ⟨.hbm, 117, rfl⟩
abbrev main_cst_14 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S121_S1x121_1 : S121.BroadcastsInDim S1x121 (![1] : Fin 1 → Fin S1x121.rank)
  bcast_S1x121_S50000x121_0_1 : S1x121.BroadcastsInDim S50000x121 (![0, 1] : Fin 2 → Fin S50000x121.rank)
  bcast_S_S50000x121 : S_.BroadcastsInDim S50000x121 (![] : Fin 0 → Fin S50000x121.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S50000x256_S256x256_S50000x256_1_0_0_1_n_n_wf : DotDims.WF S50000x256 S256x256 S50000x256 [1] [0] [0] [1] [] []
  dot_S50000x256_S256x121_S50000x121_1_0_0_1_n_n_wf : DotDims.WF S50000x256 S256x121 S50000x121 [1] [0] [0] [1] [] []

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x121_S50000x121_1_0_0_1_n_n : DotDims S50000x256 S256x121 S50000x121 where
  lhsContracting := [1]
  rhsContracting := [0]
  lhsNonContracting := [0]
  rhsNonContracting := [1]
  lhsBatch := []
  rhsBatch := []
  wf := dot_S50000x256_S256x121_S50000x121_1_0_0_1_n_n_wf

class Facts : Prop extends Facts₀ where

variable [Facts]
-- ==== Proof.Spec.lean ====
/-
  The mathematics of one layer of the network, as whole-array functions of extended reals.

  A layer takes the aggregated neighbour features `A` and the node features `H` (both N × 256), two weight matrices
  `Wo`, `Wr` (256 × c) and a bias row `B` (1 × c), and returns, at node `r` and output channel `v`,

      max ( (∑ q, A (r, q) · Wo (q, v)  +  ∑ q, H (r, q) · Wr (q, v))  +  B (0, v) ,  0 ).

  The last layer (c = 121) applies the logistic function to that. Each row of the result depends only on the same
  row of `A` and of `H`: this is what lets a kernel compute it a block of rows at a time.
-/
import proofs.«122867_j15556371546774_1_alg».proof.KernelIdeal
import Idealize.ShloMosaic.PureOps.Ideal.Laws
import Idealize.ShloMosaic.Lib.ValueIdx

noncomputable section

open scoped BigOperators

namespace Cert.GraphConv

open Idealize.ShloMosaic Idealize.ShloMosaic.ValueIdx Cert.KernelIdeal

/-- The layer's value before the rectifier at node `r`, channel `v`, for 256 output channels: the two products'
    entries added, then the bias. -/
def pre256 (A H : FVec Ideal S50000x256 .f32) (Wo Wr : FVec Ideal S256x256 .f32) (B : FVec Ideal S1x256 .f32)
    (r : Fin 50000) (v : Fin 256) : EReal :=
  ((∑ q : Fin 256, A (ix2 r q) * Wo (ix2 q v)) + (∑ q : Fin 256, H (ix2 r q) * Wr (ix2 q v))) + B (ix2 0 v)

/-- A rectified layer with 256 output channels, as one function of its five arrays. -/
def layerRelu (A H : FVec Ideal S50000x256 .f32) (Wo Wr : FVec Ideal S256x256 .f32) (B : FVec Ideal S1x256 .f32) :
    FVec Ideal S50000x256 .f32 :=
  fun i => max (pre256 A H Wo Wr B (i 0) (i 1)) 0

/-- The last layer's value before the rectifier, for 121 output channels. -/
def pre121 (A H : FVec Ideal S50000x256 .f32) (Wo Wr : FVec Ideal S256x121 .f32) (B : FVec Ideal S1x121 .f32)
    (r : Fin 50000) (v : Fin 121) : EReal :=
  ((∑ q : Fin 256, A (ix2 r q) * Wo (ix2 q v)) + (∑ q : Fin 256, H (ix2 r q) * Wr (ix2 q v))) + B (ix2 0 v)

/-- The last layer: rectified, then the logistic function, as one function of its five arrays. -/
def layerSig (A H : FVec Ideal S50000x256 .f32) (Wo Wr : FVec Ideal S256x121 .f32) (B : FVec Ideal S1x121 .f32) :
    FVec Ideal S50000x121 .f32 :=
  fun i => Ideal.logistic (max (pre121 A H Wo Wr B (i 0) (i 1)) 0)

/-- A bias vector of 256 entries laid out as the one-row array the kernel's windows read (the host's reshape). -/
abbrev biasRow256 (b : FVec Ideal S256 .f32) : FVec Ideal S1x256 .f32 := shapeCast S1x256 b (by decide)

/-- The same for 121 entries. -/
abbrev biasRow121 (b : FVec Ideal S121 .f32) : FVec Ideal S1x121 .f32 := shapeCast S1x121 b (by decide)

/-- Adding the bias after both products, or between them, is the same extended real: addition is commutative and
    associative there, infinities included. -/
theorem add_bias_comm (a r b : EReal) : (a + r) + b = (a + b) + r := add_right_comm a r b

end Cert.GraphConv

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.Region0.lean ====
/-
  Region 0 of the idealized program: what its output array holds when the region is left.

  The region runs its body at ten grid points; point `t` reads rows 5000·t … 5000·t + 4999 of the two activation
  arrays and the whole of the two weight matrices and of the bias row, and writes the same rows of the output. Row by
  row the body computes the layer's function, so the ten written blocks together are the layer's function of the
  arrays as the region found them.
-/
import proofs.«122867_j15556371546774_1_alg».proof.Proof.Gen.KernelIdeal.Frame
import proofs.«122867_j15556371546774_1_alg».proof.Proof.Spec
import proofs.«122867_j15556371546774_1_alg».proof.Proof.LibDotRowsCols
import Idealize.ShloMosaic.Lib.Pipeline.Value
import Idealize.ShloMosaic.Lib.ValueLayout

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv

variable (V : (c : Dev nD) → (b : Ref sig .tc) → Buf (Elt Ideal) ((c : Thread nD τ).loc b))

/-- The whole-shape rectangle of a two-axis buffer starts at offset zero on both axes. -/
theorem hz : (![0, 0] : Fin 2 → Nat) = fun _ => 0 := funext fun a => by fin_cases a <;> rfl

/-- The body's two products are plain rows-by-columns products: contract the left operand's columns with the right
    operand's rows, no batch axis. -/
theorem rowsCols : Cert.Lib.DotRowsCols.RowsCols dot_S5000x256_S256x256_S5000x256_1_0_0_1_n_n :=
  ⟨rfl, rfl, rfl, rfl, rfl, rfl⟩

/-- The body's arithmetic at one entry (p, v) of a block: the two products' entries over the shared axis of length 256,
    added, plus the bias row at column v, rectified. The changes of float format are the identity on the extended
    reals, and the row broadcast reads the one bias row. -/
theorem pay_apply (x0 x1 : Vec Ideal S5000x256 .f32) (x2 x3 : Vec Ideal S256x256 .f32) (x4 : Vec Ideal S1x256 .f32)
    (p : Fin 5000) (v : Fin 256) :
    k0_pay1 (F := Ideal) x0 x2 x1 x3 x4 (ix2 p v)
      = max (((∑ q : Fin 256, x0 (ix2 p q) * x2 (ix2 q v)) + (∑ q : Fin 256, x1 (ix2 p q) * x3 (ix2 q v))) + x4 (ix2 0 v)) 0 := by
  unfold k0_pay1
  simp only [shapeCast_self]
  refine congrArg₂ max (congrArg₂ (· + ·) (congrArg₂ (· + ·) ?_ ?_) ?_) ?_
  · exact rowsCols.matmul_zero_apply none _ _ (ix2 p v)
  · exact rowsCols.matmul_zero_apply none _ _ (ix2 p v)
  · exact broadcastTo_1b_ab_apply x4 _ p v
  · exact Ideal.ofBits_zero_f32

/-- The printed index maps over the ten grid points: the three row-blocked windows are at block (t, 0), the weight
    matrices and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the block at point t is row 5000·t + p of the array. -/
def row (t : Fin cfg0.N) (p : Fin 5000) : Fin 50000 :=
  ⟨5000 * t.val + p.val, by have h : t.val < 10 := N_0 ▸ t.isLt; have := p.isLt; omega⟩

/-- The aggregated-features block at point t, at (p, q), is the array at row 5000·t + p, column q. -/
theorem blk0_apply (c : Dev nD) (t : Fin cfg0.N) (p : Fin 5000) (q : Fin 256) :
    (iblk0 V c 0 t : Vec Ideal S5000x256 .f32) (ix2 p q) = (V c main_v33 : FVec Ideal S50000x256 .f32) (ix2 (row t p) q) := by
  obtain ⟨e0, e1, -⟩ := idx_facts t
  unfold iblk0
  rw [View.read_apply]
  show V c main_v33 _ = V c main_v33 _
  refine congrArg (V c main_v33) ?_
  funext a; apply Fin.ext
  match a with
  | ⟨0, _⟩ => show win0_0.index t (0 : Fin 2) * 5000 + 1 * p.val = 5000 * t.val + p.val; omega
  | ⟨1, _⟩ => show win0_0.index t (1 : Fin 2) * 256 + 1 * q.val = q.val; omega

/-- The node-features block at point t, at (p, q), is the array at row 5000·t + p, column q. -/
theorem blk1_apply (c : Dev nD) (t : Fin cfg0.N) (p : Fin 5000) (q : Fin 256) :
    (iblk0 V c 1 t : Vec Ideal S5000x256 .f32) (ix2 p q) = (V c main_arg0 : FVec Ideal S50000x256 .f32) (ix2 (row t p) q) := by
  obtain ⟨-, -, e0, e1, -⟩ := idx_facts t
  unfold iblk0
  rw [View.read_apply]
  show V c main_arg0 _ = V c main_arg0 _
  refine congrArg (V c main_arg0) ?_
  funext a; apply Fin.ext
  match a with
  | ⟨0, _⟩ => show win0_1.index t (0 : Fin 2) * 5000 + 1 * p.val = 5000 * t.val + p.val; omega
  | ⟨1, _⟩ => show win0_1.index t (1 : Fin 2) * 256 + 1 * q.val = q.val; omega

/-- The first weight matrix's block at every point is the whole matrix. -/
theorem blk2_apply (c : Dev nD) (t : Fin cfg0.N) (q v : Fin 256) :
    (iblk0 V c 2 t : Vec Ideal S256x256 .f32) (ix2 q v) = (V c main_arg2 : FVec Ideal S256x256 .f32) (ix2 q v) := by
  obtain ⟨-, -, -, -, e0, e1, -⟩ := idx_facts t
  unfold iblk0
  rw [View.read_apply]
  show V c main_arg2 _ = V c main_arg2 _
  refine congrArg (V c main_arg2) ?_
  funext a; apply Fin.ext
  match a with
  | ⟨0, _⟩ => show win0_2.index t (0 : Fin 2) * 256 + 1 * q.val = q.val; omega
  | ⟨1, _⟩ => show win0_2.index t (1 : Fin 2) * 256 + 1 * v.val = v.val; omega

/-- The second weight matrix's block at every point is the whole matrix. -/
theorem blk3_apply (c : Dev nD) (t : Fin cfg0.N) (q v : Fin 256) :
    (iblk0 V c 3 t : Vec Ideal S256x256 .f32) (ix2 q v) = (V c main_arg4 : FVec Ideal S256x256 .f32) (ix2 q v) := by
  obtain ⟨-, -, -, -, -, -, e0, e1, -⟩ := idx_facts t
  unfold iblk0
  rw [View.read_apply]
  show V c main_arg4 _ = V c main_arg4 _
  refine congrArg (V c main_arg4) ?_
  funext a; apply Fin.ext
  match a with
  | ⟨0, _⟩ => show win0_3.index t (0 : Fin 2) * 256 + 1 * q.val = q.val; omega
  | ⟨1, _⟩ => show win0_3.index t (1 : Fin 2) * 256 + 1 * v.val = v.val; omega

/-- The bias row's block at every point is the whole row. -/
theorem blk4_apply (c : Dev nD) (t : Fin cfg0.N) (z : Fin 1) (v : Fin 256) :
    (iblk0 V c 4 t : Vec Ideal S1x256 .f32) (ix2 z v) = (V c main_v34 : FVec Ideal S1x256 .f32) (ix2 z v) := by
  obtain ⟨-, -, -, -, -, -, -, -, e0, e1, -⟩ := idx_facts t
  unfold iblk0
  rw [View.read_apply]
  show V c main_v34 _ = V c main_v34 _
  refine congrArg (V c main_v34) ?_
  funext a; apply Fin.ext
  match a with
  | ⟨0, _⟩ => show win0_4.index t (0 : Fin 2) * 1 + 1 * z.val = z.val; omega
  | ⟨1, _⟩ => show win0_4.index t (1 : Fin 2) * 256 + 1 * v.val = v.val; omega

/-- Entry (p, v) of the output's block at point t sits in the output array at row 5000·t + p, column v. -/
theorem out_emb (t : Fin cfg0.N) (p : Fin 5000) (v : Fin 256) :
    (((cfg0.win 5).blk t).view.emb (ix2 p v) : S50000x256.Idx) = ix2 (row t p) v := by
  obtain ⟨-, -, -, -, -, -, -, -, -, -, e0, e1⟩ := idx_facts t
  funext a; apply Fin.ext
  match a with
  | ⟨0, _⟩ => show win0_5.index t (0 : Fin 2) * 5000 + 1 * p.val = 5000 * t.val + p.val; omega
  | ⟨1, _⟩ => show win0_5.index t (1 : Fin 2) * 256 + 1 * v.val = v.val; omega

/-- What point t writes back is rows 5000·t … 5000·t + 4999 of the layer's function of the five arrays: the body's
    entry (p, v) is the layer's formula over row p of the two activation blocks, column v of the two weight matrices
    and of the bias row, and those are row 5000·t + p of the activation arrays and the same columns of the whole
    weight matrices and bias row. -/
theorem flushed_eq (c : Dev nD) (t : Fin cfg0.N) :
    (dat0 (F := Ideal) V c).flushed 5 t
      = ((cfg0.win 5).blk t).view.read (Elt Ideal)
          (layerRelu (V c main_v33) (V c main_arg0) (V c main_arg2) (V c main_arg4) (V c main_v34)) := by
  show (cfg0.win 5).cut (grid0.coords t) ((dat0 V c).after 5 t) = _
  rw [after0_5]
  unfold out0_5
  rw [View.canon_unit_zero hz]
  simp only [View.ld_unit_zero (S := S5000x256) hz, View.ld_unit_zero (S := S256x256) hz, View.ld_unit_zero (S := S1x256) hz]
  funext j
  obtain ⟨p, v, rfl⟩ : ∃ (p : Fin 5000) (v : Fin 256), j = ix2 p v := ⟨j 0, j 1, eq_ix2 j⟩
  refine (pay_apply (iblk0 V c 0 t) (iblk0 V c 1 t) (iblk0 V c 2 t) (iblk0 V c 3 t) (iblk0 V c 4 t) p v).trans ?_
  rw [View.read_apply]
  refine Eq.trans ?_ (congrArg (layerRelu (V c main_v33) (V c main_arg0) (V c main_arg2) (V c main_arg4) (V c main_v34)) (out_emb t p v)).symm
  show max _ 0 = max (pre256 _ _ _ _ _ (row t p) v) 0
  unfold pre256
  refine congrArg₂ max (congrArg₂ (· + ·) (congrArg₂ (· + ·) (Finset.sum_congr rfl fun q _ => ?_) (Finset.sum_congr rfl fun q _ => ?_)) ?_) rfl
  · rw [blk0_apply, blk2_apply]
  · rw [blk1_apply, blk3_apply]
  · exact blk4_apply V c t 0 v

/-- An index of the output array is in point t's block iff each coordinate is in the block's range on its axis. -/
theorem mem_blk (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v35).slice (win0_5.rect t)).set ↔ _
  rw [View.set_slice_whole, Rect.mem_set_unit]
  exact Iff.rfl

/-- Every entry of the output array is written by some point: row r by point r / 5000, whose block has every column. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ : ∃ t : Fin cfg0.N, t.val = (i 0).val / 5000 :=
    ⟨⟨(i 0).val / 5000, by rw [show cfg0.N = 10 from N_0]; omega⟩, rfl⟩
  refine ⟨t, flush0_5 t, ?_⟩
  rw [mem_blk]
  obtain ⟨-, -, -, -, -, -, -, -, -, -, e0, e1⟩ := idx_facts t
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 256 ≤ (i 1).val ∧ (i 1).val < win0_5.index t (1 : Fin 2) * 256 + 256; omega

/-- The region's output array after its ten write-backs is the layer's function of the five arrays it was entered
    with. -/
theorem out_eq (c : Dev nD) :
    (dat0 (F := Ideal) V c).arrAt 5 cfg0.N
      = layerRelu (V c main_v33) (V c main_arg0) (V c main_arg2) (V c main_arg4) (V c main_v34) :=
  (dat0 (F := Ideal) V c).arrAt_eq_of_cover 5
    (layerRelu (V c main_v33) (V c main_arg0) (V c main_arg2) (V c main_arg4) (V c main_v34))
    (fun t _ => flushed_eq V c t) cover

end Cert.KernelIdeal.Region0

end
-- ==== Proof.Region1.lean ====
/-
  Region 1 of the idealized program: what its output array holds when the region is left.

  The region runs its body at ten grid points; point `t` reads rows 5000·t … 5000·t + 4999 of the two activation
  arrays and the whole of the two weight matrices and of the bias row, and writes the same rows of the output. Row by
  row the body computes the layer's function, so the ten written blocks together are the layer's function of the
  arrays as the region found them.
-/
import proofs.«122867_j15556371546774_1_alg».proof.Proof.Gen.KernelIdeal.Frame
import proofs.«122867_j15556371546774_1_alg».proof.Proof.Spec
import proofs.«122867_j15556371546774_1_alg».proof.Proof.LibDotRowsCols
import Idealize.ShloMosaic.Lib.Pipeline.Value
import Idealize.ShloMosaic.Lib.ValueLayout

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv

variable (V : (c : Dev nD) → (b : Ref sig .tc) → Buf (Elt Ideal) ((c : Thread nD τ).loc b))

/-- The whole-shape rectangle of a two-axis buffer starts at offset zero on both axes. -/
theorem hz : (![0, 0] : Fin 2 → Nat) = fun _ => 0 := funext fun a => by fin_cases a <;> rfl

/-- The body's two products are plain rows-by-columns products: contract the left operand's columns with the right
    operand's rows, no batch axis. -/
theorem rowsCols : Cert.Lib.DotRowsCols.RowsCols dot_S5000x256_S256x256_S5000x256_1_0_0_1_n_n :=
  ⟨rfl, rfl, rfl, rfl, rfl, rfl⟩

/-- The body's arithmetic at one entry (p, v) of a block: the two products' entries over the shared axis of length 256,
    added, plus the bias row at column v, rectified. The changes of float format and the casts of a shape to itself are
    the identity on the extended reals, and the row broadcast reads the one bias row. -/
theorem pay_apply (x0 x1 : Vec Ideal S5000x256 .f32) (x2 x3 : Vec Ideal S256x256 .f32) (x4 : Vec Ideal S1x256 .f32)
    (p : Fin 5000) (v : Fin 256) :
    k1_pay1 (F := Ideal) x0 x2 x1 x3 x4 (ix2 p v)
      = max (((∑ q : Fin 256, x0 (ix2 p q) * x2 (ix2 q v)) + (∑ q : Fin 256, x1 (ix2 p q) * x3 (ix2 q v))) + x4 (ix2 0 v)) 0 := by
  unfold k1_pay1
  simp only [shapeCast_self]
  refine congrArg₂ max (congrArg₂ (· + ·) (congrArg₂ (· + ·) ?_ ?_) ?_) ?_
  · exact rowsCols.matmul_zero_apply none _ _ (ix2 p v)
  · exact rowsCols.matmul_zero_apply none _ _ (ix2 p v)
  · exact broadcastTo_1b_ab_apply x4 _ p v
  · exact Ideal.ofBits_zero_f32

/-- The printed index maps over the ten grid points: the three row-blocked windows are at block (t, 0), the weight
    matrices and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the block at point t is row 5000·t + p of the array. -/
def row (t : Fin cfg1.N) (p : Fin 5000) : Fin 50000 :=
  ⟨5000 * t.val + p.val, by have h : t.val < 10 := N_1 ▸ t.isLt; have := p.isLt; omega⟩

/-- The aggregated-features block at point t, at (p, q), is the array at row 5000·t + p, column q. -/
theorem blk0_apply (c : Dev nD) (t : Fin cfg1.N) (p : Fin 5000) (q : Fin 256) :
    (iblk1 V c 0 t : Vec Ideal S5000x256 .f32) (ix2 p q) = (V c main_v47 : FVec Ideal S50000x256 .f32) (ix2 (row t p) q) := by
  obtain ⟨e0, e1, -⟩ := idx_facts t
  unfold iblk1
  rw [View.read_apply]
  show V c main_v47 _ = V c main_v47 _
  refine congrArg (V c main_v47) ?_
  funext a; apply Fin.ext
  match a with
  | ⟨0, _⟩ => show win1_0.index t (0 : Fin 2) * 5000 + 1 * p.val = 5000 * t.val + p.val; omega
  | ⟨1, _⟩ => show win1_0.index t (1 : Fin 2) * 256 + 1 * q.val = q.val; omega

/-- The node-features block at point t, at (p, q), is the array at row 5000·t + p, column q. -/
theorem blk1_apply (c : Dev nD) (t : Fin cfg1.N) (p : Fin 5000) (q : Fin 256) :
    (iblk1 V c 1 t : Vec Ideal S5000x256 .f32) (ix2 p q) = (V c main_v35 : FVec Ideal S50000x256 .f32) (ix2 (row t p) q) := by
  obtain ⟨-, -, e0, e1, -⟩ := idx_facts t
  unfold iblk1
  rw [View.read_apply]
  show V c main_v35 _ = V c main_v35 _
  refine congrArg (V c main_v35) ?_
  funext a; apply Fin.ext
  match a with
  | ⟨0, _⟩ => show win1_1.index t (0 : Fin 2) * 5000 + 1 * p.val = 5000 * t.val + p.val; omega
  | ⟨1, _⟩ => show win1_1.index t (1 : Fin 2) * 256 + 1 * q.val = q.val; omega

/-- The first weight matrix's block at every point is the whole matrix. -/
theorem blk2_apply (c : Dev nD) (t : Fin cfg1.N) (q v : Fin 256) :
    (iblk1 V c 2 t : Vec Ideal S256x256 .f32) (ix2 q v) = (V c main_arg5 : FVec Ideal S256x256 .f32) (ix2 q v) := by
  obtain ⟨-, -, -, -, e0, e1, -⟩ := idx_facts t
  unfold iblk1
  rw [View.read_apply]
  show V c main_arg5 _ = V c main_arg5 _
  refine congrArg (V c main_arg5) ?_
  funext a; apply Fin.ext
  match a with
  | ⟨0, _⟩ => show win1_2.index t (0 : Fin 2) * 256 + 1 * q.val = q.val; omega
  | ⟨1, _⟩ => show win1_2.index t (1 : Fin 2) * 256 + 1 * v.val = v.val; omega

/-- The second weight matrix's block at every point is the whole matrix. -/
theorem blk3_apply (c : Dev nD) (t : Fin cfg1.N) (q v : Fin 256) :
    (iblk1 V c 3 t : Vec Ideal S256x256 .f32) (ix2 q v) = (V c main_arg7 : FVec Ideal S256x256 .f32) (ix2 q v) := by
  obtain ⟨-, -, -, -, -, -, e0, e1, -⟩ := idx_facts t
  unfold iblk1
  rw [View.read_apply]
  show V c main_arg7 _ = V c main_arg7 _
  refine congrArg (V c main_arg7) ?_
  funext a; apply Fin.ext
  match a with
  | ⟨0, _⟩ => show win1_3.index t (0 : Fin 2) * 256 + 1 * q.val = q.val; omega
  | ⟨1, _⟩ => show win1_3.index t (1 : Fin 2) * 256 + 1 * v.val = v.val; omega

/-- The bias row's block at every point is the whole row. -/
theorem blk4_apply (c : Dev nD) (t : Fin cfg1.N) (z : Fin 1) (v : Fin 256) :
    (iblk1 V c 4 t : Vec Ideal S1x256 .f32) (ix2 z v) = (V c main_v48 : FVec Ideal S1x256 .f32) (ix2 z v) := by
  obtain ⟨-, -, -, -, -, -, -, -, e0, e1, -⟩ := idx_facts t
  unfold iblk1
  rw [View.read_apply]
  show V c main_v48 _ = V c main_v48 _
  refine congrArg (V c main_v48) ?_
  funext a; apply Fin.ext
  match a with
  | ⟨0, _⟩ => show win1_4.index t (0 : Fin 2) * 1 + 1 * z.val = z.val; omega
  | ⟨1, _⟩ => show win1_4.index t (1 : Fin 2) * 256 + 1 * v.val = v.val; omega

/-- Entry (p, v) of the output's block at point t sits in the output array at row 5000·t + p, column v. -/
theorem out_emb (t : Fin cfg1.N) (p : Fin 5000) (v : Fin 256) :
    (((cfg1.win 5).blk t).view.emb (ix2 p v) : S50000x256.Idx) = ix2 (row t p) v := by
  obtain ⟨-, -, -, -, -, -, -, -, -, -, e0, e1⟩ := idx_facts t
  funext a; apply Fin.ext
  match a with
  | ⟨0, _⟩ => show win1_5.index t (0 : Fin 2) * 5000 + 1 * p.val = 5000 * t.val + p.val; omega
  | ⟨1, _⟩ => show win1_5.index t (1 : Fin 2) * 256 + 1 * v.val = v.val; omega

/-- What point t writes back is rows 5000·t … 5000·t + 4999 of the layer's function of the five arrays: the body's
    entry (p, v) is the layer's formula over row p of the two activation blocks, column v of the two weight matrices
    and of the bias row, and those are row 5000·t + p of the activation arrays and the same columns of the whole
    weight matrices and bias row. -/
theorem flushed_eq (c : Dev nD) (t : Fin cfg1.N) :
    (dat1 (F := Ideal) V c).flushed 5 t
      = ((cfg1.win 5).blk t).view.read (Elt Ideal)
          (layerRelu (V c main_v47) (V c main_v35) (V c main_arg5) (V c main_arg7) (V c main_v48)) := by
  show (cfg1.win 5).cut (grid1.coords t) ((dat1 V c).after 5 t) = _
  rw [after1_5]
  unfold out1_5
  rw [View.canon_unit_zero hz]
  simp only [View.ld_unit_zero (S := S5000x256) hz, View.ld_unit_zero (S := S256x256) hz, View.ld_unit_zero (S := S1x256) hz]
  funext j
  obtain ⟨p, v, rfl⟩ : ∃ (p : Fin 5000) (v : Fin 256), j = ix2 p v := ⟨j 0, j 1, eq_ix2 j⟩
  refine (pay_apply (iblk1 V c 0 t) (iblk1 V c 1 t) (iblk1 V c 2 t) (iblk1 V c 3 t) (iblk1 V c 4 t) p v).trans ?_
  rw [View.read_apply]
  refine Eq.trans ?_ (congrArg (layerRelu (V c main_v47) (V c main_v35) (V c main_arg5) (V c main_arg7) (V c main_v48)) (out_emb t p v)).symm
  show max _ 0 = max (pre256 _ _ _ _ _ (row t p) v) 0
  unfold pre256
  refine congrArg₂ max (congrArg₂ (· + ·) (congrArg₂ (· + ·) (Finset.sum_congr rfl fun q _ => ?_) (Finset.sum_congr rfl fun q _ => ?_)) ?_) rfl
  · rw [blk0_apply, blk2_apply]
  · rw [blk1_apply, blk3_apply]
  · exact blk4_apply V c t 0 v

/-- An index of the output array is in point t's block iff each coordinate is in the block's range on its axis. -/
theorem mem_blk (t : Fin cfg1.N) (i : S50000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v49).slice (win1_5.rect t)).set ↔ _
  rw [View.set_slice_whole, Rect.mem_set_unit]
  exact Iff.rfl

/-- Every entry of the output array is written by some point: row r by point r / 5000, whose block has every column. -/
theorem cover (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ : ∃ t : Fin cfg1.N, t.val = (i 0).val / 5000 :=
    ⟨⟨(i 0).val / 5000, by rw [show cfg1.N = 10 from N_1]; omega⟩, rfl⟩
  refine ⟨t, flush1_5 t, ?_⟩
  rw [mem_blk]
  obtain ⟨-, -, -, -, -, -, -, -, -, -, e0, e1⟩ := idx_facts t
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 256 ≤ (i 1).val ∧ (i 1).val < win1_5.index t (1 : Fin 2) * 256 + 256; omega

/-- The region's output array after its ten write-backs is the layer's function of the five arrays it was entered
    with. -/
theorem out_eq (c : Dev nD) :
    (dat1 (F := Ideal) V c).arrAt 5 cfg1.N
      = layerRelu (V c main_v47) (V c main_v35) (V c main_arg5) (V c main_arg7) (V c main_v48) :=
  (dat1 (F := Ideal) V c).arrAt_eq_of_cover 5
    (layerRelu (V c main_v47) (V c main_v35) (V c main_arg5) (V c main_arg7) (V c main_v48))
    (fun t _ => flushed_eq V c t) cover

end Cert.KernelIdeal.Region1

end
-- ==== Proof.Region2.lean ====
/-
  Region 2 of the idealized program: what its output array holds when the region is left.

  The region runs its body at ten grid points; point `t` reads rows 5000·t … 5000·t + 4999 of the two activation
  arrays and the whole of the two weight matrices and of the bias row, and writes the same rows of the output. Row by
  row the body computes the layer's function, so the ten written blocks together are the layer's function of the
  arrays as the region found them.
-/
import proofs.«122867_j15556371546774_1_alg».proof.Proof.Gen.KernelIdeal.Frame
import proofs.«122867_j15556371546774_1_alg».proof.Proof.Spec
import proofs.«122867_j15556371546774_1_alg».proof.Proof.LibDotRowsCols
import Idealize.ShloMosaic.Lib.Pipeline.Value
import Idealize.ShloMosaic.Lib.ValueLayout

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv

/-! ## The body's arithmetic at one entry -/

/-- The body's two products contract the activations' columns with the weights' rows. -/
theorem rowsCols : Cert.Lib.DotRowsCols.RowsCols dot_S5000x256_S256x121_S5000x121_1_0_0_1_n_n :=
  ⟨rfl, rfl, rfl, rfl, rfl, rfl⟩

/-- The bias row spread over the block's 5000 rows reads, at (p, q), the row's entry (0, q). -/
theorem bias_apply (x4 : Vec Ideal S1x121 .f32) (p : Fin 5000) (q : Fin 121) :
    broadcastTo S5000x121 (shapeCast S1x121 x4 shapeCasts_S1x121_S1x121) broadcasts_S1x121_S5000x121 (ix2 p q)
      = x4 (ix2 0 q) := by
  rw [shapeCast_self]
  refine broadcastTo_apply x4 broadcasts_S1x121_S5000x121 (ix2 p q) (ix2 0 q) ?_
  intro a
  match a with
  | ⟨0, _⟩ => rfl
  | ⟨1, _⟩ => rfl

/-- Entry (p, q) of what the body stores, from the blocks it loaded: row p of the two activation blocks against
    column q of the two weight matrices, the two sums added, then entry (0, q) of the bias row, the rectifier, the
    logistic function. The changes of float format are the identity on extended reals, and each product accumulates
    into zero. -/
theorem pay_apply (x0 x1 : Vec Ideal S5000x256 .f32) (x2 x3 : Vec Ideal S256x121 .f32) (x4 : Vec Ideal S1x121 .f32)
    (p : Fin 5000) (q : Fin 121) :
    k2_pay1 (F := Ideal) x0 x2 x1 x3 x4 (ix2 p q)
      = Ideal.logistic (max (((∑ k : Fin 256, x0 (ix2 p k) * x2 (ix2 k q))
          + (∑ k : Fin 256, x1 (ix2 p k) * x3 (ix2 k q))) + x4 (ix2 0 q)) 0) := by
  unfold k2_pay1
  show Ideal.logistic (max ((matmul (F := Ideal) dot_S5000x256_S256x121_S5000x121_1_0_0_1_n_n none _ _
        (constant _ .f32 0x00000000#32) (ix2 p q)
      + matmul (F := Ideal) dot_S5000x256_S256x121_S5000x121_1_0_0_1_n_n none _ _
        (constant _ .f32 0x00000000#32) (ix2 p q))
      + broadcastTo S5000x121 (shapeCast S1x121 x4 shapeCasts_S1x121_S1x121) broadcasts_S1x121_S5000x121 (ix2 p q))
      (Ideal.ofBits .f32 0x00000000#32)) = _
  rw [rowsCols.matmul_zero_apply, rowsCols.matmul_zero_apply, bias_apply, Ideal.ofBits_zero_f32, shapeCast_self,
    shapeCast_self]
  rfl

/-- The same entry is the layer's function at array index `i`, once row p of each activation block is row `i 0` of its
    array, column q of each weight block is column `i 1` of its matrix, and likewise for the bias row. -/
theorem pay_eq_layer (A H : FVec Ideal S50000x256 .f32) (Wo Wr : FVec Ideal S256x121 .f32) (B : FVec Ideal S1x121 .f32)
    (x0 x1 : Vec Ideal S5000x256 .f32) (x2 x3 : Vec Ideal S256x121 .f32) (x4 : Vec Ideal S1x121 .f32)
    (p : Fin 5000) (q : Fin 121) (i : S50000x121.Idx)
    (h0 : ∀ k : Fin 256, x0 (ix2 p k) = A (ix2 (i 0) k))
    (h1 : ∀ k : Fin 256, x1 (ix2 p k) = H (ix2 (i 0) k))
    (h2 : ∀ k : Fin 256, x2 (ix2 k q) = Wo (ix2 k (i 1)))
    (h3 : ∀ k : Fin 256, x3 (ix2 k q) = Wr (ix2 k (i 1)))
    (h4 : x4 (ix2 0 q) = B (ix2 0 (i 1))) :
    k2_pay1 (F := Ideal) x0 x2 x1 x3 x4 (ix2 p q) = layerSig A H Wo Wr B i := by
  rw [pay_apply]
  simp only [h0, h1, h2, h3, h4]
  rfl

variable (V : (c : Dev nD) → (b : Ref sig .tc) → Buf (Elt Ideal) ((c : Thread nD τ).loc b))

/-! ## The blocks as rows of the arrays -/

theorem hz : (![0, 0] : Fin 2 → Nat) = fun _ => 0 := funext fun a => by fin_cases a <;> rfl

/-- The windows' index maps over the grid: the two activation windows and the output window are at block (t, 0), the
    weight and bias windows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The aggregated-features block at point t is rows 5000·t … of its array. -/
theorem iblk0_apply (c : Dev nD) (t : Fin cfg2.N) (x : S5000x256.Idx) (k : S50000x256.Idx)
    (hk0 : (k 0).val = 5000 * t.val + (x 0).val) (hk1 : (k 1).val = (x 1).val) :
    (iblk2 V c 0 t : Vec Ideal S5000x256 .f32) x = (V c main_v61 : S50000x256.Idx → EReal) k := by
  obtain ⟨e00, e01, -⟩ := idx_facts t
  unfold iblk2
  rw [View.read_apply]
  show V c main_v61 _ = V c main_v61 _
  congr 1
  funext a
  apply Fin.ext
  match a with
  | ⟨0, _⟩ => show win2_0.index t (0 : Fin 2) * 5000 + 1 * (x 0).val = (k 0).val; rw [e00, hk0]; omega
  | ⟨1, _⟩ => show win2_0.index t (1 : Fin 2) * 256 + 1 * (x 1).val = (k 1).val; rw [e01, hk1]; omega

/-- The node-features block at point t is the same rows of its array. -/
theorem iblk1_apply (c : Dev nD) (t : Fin cfg2.N) (x : S5000x256.Idx) (k : S50000x256.Idx)
    (hk0 : (k 0).val = 5000 * t.val + (x 0).val) (hk1 : (k 1).val = (x 1).val) :
    (iblk2 V c 1 t : Vec Ideal S5000x256 .f32) x = (V c main_v49 : S50000x256.Idx → EReal) k := by
  obtain ⟨-, -, e10, e11, -⟩ := idx_facts t
  unfold iblk2
  rw [View.read_apply]
  show V c main_v49 _ = V c main_v49 _
  congr 1
  funext a
  apply Fin.ext
  match a with
  | ⟨0, _⟩ => show win2_1.index t (0 : Fin 2) * 5000 + 1 * (x 0).val = (k 0).val; rw [e10, hk0]; omega
  | ⟨1, _⟩ => show win2_1.index t (1 : Fin 2) * 256 + 1 * (x 1).val = (k 1).val; rw [e11, hk1]; omega

/-- The first weight window's block is the whole matrix at every point. -/
theorem iblk2_apply (c : Dev nD) (t : Fin cfg2.N) (x : S256x121.Idx) :
    (iblk2 V c 2 t : Vec Ideal S256x121 .f32) x = (V c main_arg8 : S256x121.Idx → EReal) x := by
  obtain ⟨-, -, -, -, e20, e21, -⟩ := idx_facts t
  unfold iblk2
  rw [View.read_apply]
  show V c main_arg8 _ = V c main_arg8 _
  congr 1
  funext a
  apply Fin.ext
  match a with
  | ⟨0, _⟩ => show win2_2.index t (0 : Fin 2) * 256 + 1 * (x 0).val = (x 0).val; rw [e20]; omega
  | ⟨1, _⟩ => show win2_2.index t (1 : Fin 2) * 121 + 1 * (x 1).val = (x 1).val; rw [e21]; omega

/-- So is the second weight window's. -/
theorem iblk3_apply (c : Dev nD) (t : Fin cfg2.N) (x : S256x121.Idx) :
    (iblk2 V c 3 t : Vec Ideal S256x121 .f32) x = (V c main_arg10 : S256x121.Idx → EReal) x := by
  obtain ⟨-, -, -, -, -, -, e30, e31, -⟩ := idx_facts t
  unfold iblk2
  rw [View.read_apply]
  show V c main_arg10 _ = V c main_arg10 _
  congr 1
  funext a
  apply Fin.ext
  match a with
  | ⟨0, _⟩ => show win2_3.index t (0 : Fin 2) * 256 + 1 * (x 0).val = (x 0).val; rw [e30]; omega
  | ⟨1, _⟩ => show win2_3.index t (1 : Fin 2) * 121 + 1 * (x 1).val = (x 1).val; rw [e31]; omega

/-- The bias window's block is the whole row at every point. -/
theorem iblk4_apply (c : Dev nD) (t : Fin cfg2.N) (x : S1x121.Idx) :
    (iblk2 V c 4 t : Vec Ideal S1x121 .f32) x = (V c main_v62 : S1x121.Idx → EReal) x := by
  obtain ⟨-, -, -, -, -, -, -, -, e40, e41, -⟩ := idx_facts t
  unfold iblk2
  rw [View.read_apply]
  show V c main_v62 _ = V c main_v62 _
  congr 1
  funext a
  apply Fin.ext
  match a with
  | ⟨0, _⟩ => show win2_4.index t (0 : Fin 2) * 1 + 1 * (x 0).val = (x 0).val; rw [e40]; omega
  | ⟨1, _⟩ => show win2_4.index t (1 : Fin 2) * 121 + 1 * (x 1).val = (x 1).val; rw [e41]; omega

/-! ## What a point writes back -/

/-- Point t writes back rows 5000·t … of the layer's function of the five arrays: entry (p, q) of the stored block
    is the layer's entry (5000·t + p, q), since the rows the body read are those rows of the activations. -/
theorem flushed_eq (c : Dev nD) (t : Fin cfg2.N) :
    (dat2 (F := Ideal) V c).flushed 5 t = ((cfg2.win 5).blk t).view.read (Elt Ideal)
      (layerSig (V c main_v61) (V c main_v49) (V c main_arg8) (V c main_arg10) (V c main_v62)) := by
  show (cfg2.win 5).cut (grid2.coords t) ((dat2 V c).after 5 t) = _
  rw [after2_5]
  unfold out2_5
  rw [View.canon_unit_zero hz]
  simp only [View.ld_unit_zero (S := S5000x256) hz, View.ld_unit_zero (S := S256x121) hz,
    View.ld_unit_zero (S := S1x121) hz]
  obtain ⟨-, -, -, -, -, -, -, -, -, -, e50, e51⟩ := idx_facts t
  funext j
  obtain ⟨p, q, rfl⟩ : ∃ (p : Fin 5000) (q : Fin 121), j = ix2 p q := ⟨j 0, j 1, eq_ix2 j⟩
  rw [View.read_apply]
  have hr : ((((cfg2.win 5).blk t).view.emb (ix2 p q) : S50000x121.Idx) 0).val = 5000 * t.val + p.val := by
    show win2_5.index t (0 : Fin 2) * 5000 + 1 * p.val = _; rw [e50]; omega
  have hv : ((((cfg2.win 5).blk t).view.emb (ix2 p q) : S50000x121.Idx) 1).val = q.val := by
    show win2_5.index t (1 : Fin 2) * 121 + 1 * q.val = _; rw [e51]; omega
  refine pay_eq_layer (V c main_v61) (V c main_v49) (V c main_arg8) (V c main_arg10) (V c main_v62)
    (iblk2 V c 0 t) (iblk2 V c 1 t) (iblk2 V c 2 t) (iblk2 V c 3 t) (iblk2 V c 4 t) p q
    (((cfg2.win 5).blk t).view.emb (ix2 p q)) ?_ ?_ ?_ ?_ ?_
  · intro k; exact iblk0_apply V c t (ix2 p k) _ hr rfl
  · intro k; exact iblk1_apply V c t (ix2 p k) _ hr rfl
  · intro k
    refine (iblk2_apply V c t (ix2 k q)).trans (congrArg (V c main_arg8 : S256x121.Idx → EReal) ?_)
    funext a; apply Fin.ext
    match a with
    | ⟨0, _⟩ => rfl
    | ⟨1, _⟩ => exact hv.symm
  · intro k
    refine (iblk3_apply V c t (ix2 k q)).trans (congrArg (V c main_arg10 : S256x121.Idx → EReal) ?_)
    funext a; apply Fin.ext
    match a with
    | ⟨0, _⟩ => rfl
    | ⟨1, _⟩ => exact hv.symm
  · refine (iblk4_apply V c t (ix2 0 q)).trans (congrArg (V c main_v62 : S1x121.Idx → EReal) ?_)
    funext a; apply Fin.ext
    match a with
    | ⟨0, _⟩ => rfl
    | ⟨1, _⟩ => exact hv.symm

/-! ## The ten blocks cover the array -/

/-- An index of the output array is in point t's block iff each coordinate is in the block's range on its axis. -/
theorem mem_blk (t : Fin cfg2.N) (i : S50000x121.Idx) :
    i ∈ ((cfg2.win 5).blk t).view.set ↔ ∀ a : Fin 2, win2_5.index t a * S5000x121.size a ≤ (i a).val
      ∧ (i a).val < win2_5.index t a * S5000x121.size a + S5000x121.size a := by
  show i ∈ ((View.whole main_v63).slice (win2_5.rect t)).set ↔ _
  rw [View.set_slice_whole, Rect.mem_set_unit]
  exact Iff.rfl

/-- Row r of the output is written by point r / 5000, whose block holds every column. -/
theorem cover (i : S50000x121.Idx) :
    ∃ t : Fin cfg2.N, (cfg2.win 5).flush t = true ∧ i ∈ ((cfg2.win 5).blk t).view.set := by
  have hi0 : (i 0).val < 50000 := (i 0).isLt
  have hi1 : (i 1).val < 121 := (i 1).isLt
  have hN : cfg2.N = 10 := by decide
  refine ⟨⟨(i 0).val / 5000, by omega⟩, flush2_5 _, ?_⟩
  rw [mem_blk]
  obtain ⟨-, -, -, -, -, -, -, -, -, -, e50, e51⟩ := idx_facts ⟨(i 0).val / 5000, by omega⟩
  intro a
  match a with
  | ⟨0, _⟩ =>
    show win2_5.index ⟨(i 0).val / 5000, _⟩ (0 : Fin 2) * 5000 ≤ (i 0).val
      ∧ (i 0).val < win2_5.index ⟨(i 0).val / 5000, _⟩ (0 : Fin 2) * 5000 + 5000
    rw [e50]
    show (i 0).val / 5000 * 5000 ≤ (i 0).val ∧ (i 0).val < (i 0).val / 5000 * 5000 + 5000
    omega
  | ⟨1, _⟩ =>
    show win2_5.index ⟨(i 0).val / 5000, _⟩ (1 : Fin 2) * 121 ≤ (i 1).val
      ∧ (i 1).val < win2_5.index ⟨(i 0).val / 5000, _⟩ (1 : Fin 2) * 121 + 121
    rw [e51]
    omega

/-- The region's output array after its ten write-backs is the layer's function of the five arrays it was entered
    with. -/
theorem out_eq (c : Dev nD) :
    (dat2 (F := Ideal) V c).arrAt 5 cfg2.N
      = layerSig (V c main_v61) (V c main_v49) (V c main_arg8) (V c main_arg10) (V c main_v62) :=
  (dat2 (F := Ideal) V c).arrAt_eq_of_cover 5
    (layerSig (V c main_v61) (V c main_v49) (V c main_arg8) (V c main_arg10) (V c main_v62))
    (fun t _ => flushed_eq V c t) cover

end Cert.KernelIdeal.Region2

end
-- ==== Proof.RefLayers.lean ====
/-
  The reference program's three layers, each as the layer's function of the stages before it.

  The reference computes a layer as  max ((A · Wo + bias) + H · Wr, 0)  with the host's matrix products and a
  broadcast bias; entry by entry that is the layer's function (the two products' entries are plain sums over the
  256 shared positions, and the bias may be added before or after the second product). The last layer's
  1 / (1 + exp (−y)) is the logistic function of y.
-/
import proofs.«122867_j15556371546774_1_alg».proof.Proof.Gen.ReferenceIdeal.Read
import proofs.«122867_j15556371546774_1_alg».proof.Proof.Spec
import proofs.«122867_j15556371546774_1_alg».proof.Proof.LibDotRowsCols
import Idealize.ShloMosaic.Lib.Pipeline.Value
import Idealize.ShloMosaic.Lib.ValueLayout
import Idealize.ShloMosaic.Lib.IdealHost

set_option maxRecDepth 16384

noncomputable section

open scoped BigOperators

namespace Cert.ReferenceIdeal.Layers

open Idealize.ShloMosaic Idealize.ShloMosaic.TcCoe Idealize.ShloMosaic.ValueIdx Idealize.SL.Sem
open Idealize.ShloMosaic.Pipeline (Dat Cfg Window)
open Cert.ReferenceIdeal Cert.ReferenceIdeal.Read Cert.GraphConv

open Cert.Lib.DotRowsCols

/-! ## The two products' dimension numbers, and the bias row read at an entry -/

/-- The reference's product of an N × 256 array with a 256 × 256 array contracts the left operand's columns with the
    right operand's rows and keeps the other two axes: entry (r, v) is the plain sum over the 256 shared positions. -/
theorem rowsCols_256 : RowsCols dot_S50000x256_S256x256_S50000x256_1_0_0_1_n_n := ⟨rfl, rfl, rfl, rfl, rfl, rfl⟩

/-- The same for the last layer's N × 256 by 256 × 121 product. -/
theorem rowsCols_121 : RowsCols dot_S50000x256_S256x121_S50000x121_1_0_0_1_n_n := ⟨rfl, rfl, rfl, rfl, rfl, rfl⟩

/-- The 256-entry bias vector laid out as one row reads, at (0, v), the vector's entry v. -/
theorem biasRow256_apply (b : FVec Ideal S256 .f32) (v : Fin 256) : biasRow256 b (ix2 0 v) = b (ix1 v) :=
  shapeCast_a_1a_apply b _ 0 v

/-- The 121-entry bias vector laid out as one row reads, at (0, v), the vector's entry v. -/
theorem biasRow121_apply (b : FVec Ideal S121 .f32) (v : Fin 121) : biasRow121 b (ix2 0 v) = b (ix1 v) :=
  shapeCast_a_1a_apply b _ 0 v

/-- The first layer's bias, broadcast [256] → [1, 256] → [N, 256], reads at entry (r, v) the bias vector at v. -/
theorem bias_idx0 (i : S50000x256.Idx) : idx_main_v35 (idx_main_v36 i) = ix1 (i 1) :=
  funext fun a => by match a with | ⟨0, _⟩ => rfl

/-- The second layer's broadcast bias likewise. -/
theorem bias_idx1 (i : S50000x256.Idx) : idx_main_v54 (idx_main_v55 i) = ix1 (i 1) :=
  funext fun a => by match a with | ⟨0, _⟩ => rfl

/-- The last layer's bias, broadcast [121] → [1, 121] → [N, 121], reads at entry (r, v) the bias vector at v. -/
theorem bias_idx2 (i : S50000x121.Idx) : idx_main_v73 (idx_main_v74 i) = ix1 (i 1) :=
  funext fun a => by match a with | ⟨0, _⟩ => rfl

/-! ## The three layers

  Each proof reads the stage at an entry (r, v): the rectifier's operands, the two additions, the two products as
  sums over the 256 shared positions, the broadcast bias as the bias vector at v, the broadcast constant as 0. What
  is left differs from the layer's function only in where the bias is added: (A·Wo + b) + H·Wr against
  (A·Wo + H·Wr) + b. -/

/-- The first layer's stage is the rectified layer of the first aggregation and the input features. -/
theorem layer0_eq (x0 : (⟨S50000x256, .f32⟩ : BufTy).Contents (Elt Ideal)) (x1 : (⟨S2x400000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) :
    val_main_v40 (F := Ideal) x0 x1 x2 x3 x4
      = layerRelu (val_main_v33 (F := Ideal) x0 x1) x0 x2 x4 (biasRow256 x3) := by
  funext i
  rw [val_main_v40_apply, val_main_v39_apply, val_main_v37_apply, val_main_v36_apply, val_main_v35_apply,
    val_main_call1_v0_apply, val_main_call1_cst_apply, val_main_v34, val_main_v38,
    rowsCols_256.dotGeneral_apply, rowsCols_256.dotGeneral_apply, bias_idx0]
  have hb : biasRow256 x3 (ix2 0 (i 1)) = x3 (ix1 (i 1)) := biasRow256_apply x3 (i 1)
  show max ((_ + _) + _) (Ideal.ofBits .f32 0x00000000#32) = max ((_ + _) + biasRow256 x3 (ix2 0 (i 1))) 0
  rw [hb, Ideal.ofBits_zero_f32, add_bias_comm]
  rfl

/-- The second layer's stage is the rectified layer of the second aggregation and the first layer's output. -/
theorem layer1_eq (x0 : (⟨S50000x256, .f32⟩ : BufTy).Contents (Elt Ideal)) (x1 : (⟨S2x400000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) :
    val_main_v59 (F := Ideal) x0 x1 x2 x3 x4 x5 x6 x7
      = layerRelu (val_main_v52 (F := Ideal) x0 x1 x2 x3 x4) (val_main_v40 (F := Ideal) x0 x1 x2 x3 x4) x5 x7 (biasRow256 x6) := by
  funext i
  rw [val_main_v59_apply, val_main_v58_apply, val_main_v56_apply, val_main_v55_apply, val_main_v54_apply,
    val_main_call2_v0_apply, val_main_call2_cst_apply, val_main_v53, val_main_v57,
    rowsCols_256.dotGeneral_apply, rowsCols_256.dotGeneral_apply, bias_idx1]
  have hb : biasRow256 x6 (ix2 0 (i 1)) = x6 (ix1 (i 1)) := biasRow256_apply x6 (i 1)
  show max ((_ + _) + _) (Ideal.ofBits .f32 0x00000000#32) = max ((_ + _) + biasRow256 x6 (ix2 0 (i 1))) 0
  rw [hb, Ideal.ofBits_zero_f32, add_bias_comm]
  rfl

/-- The last layer's rectified stage, before the logistic step: the same reading as the first two layers', with 121
    output channels. -/
theorem relu2_apply (x0 : (⟨S50000x256, .f32⟩ : BufTy).Contents (Elt Ideal)) (x1 : (⟨S2x400000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256x121, .f32⟩ : BufTy).Contents (Elt Ideal)) (x9 : (⟨S121, .f32⟩ : BufTy).Contents (Elt Ideal)) (x10 : (⟨S256x121, .f32⟩ : BufTy).Contents (Elt Ideal)) (i : S50000x121.Idx) :
    val_main_v78 (F := Ideal) x0 x1 x2 x3 x4 x5 x6 x7 x8 x9 x10 i
      = max (pre121 (val_main_v71 (F := Ideal) x0 x1 x2 x3 x4 x5 x6 x7) (val_main_v59 (F := Ideal) x0 x1 x2 x3 x4 x5 x6 x7) x8 x10 (biasRow121 x9) (i 0) (i 1)) 0 := by
  rw [val_main_v78_apply, val_main_v77_apply, val_main_v75_apply, val_main_v74_apply, val_main_v73_apply,
    val_main_call3_v0_apply, val_main_call3_cst_apply, val_main_v72, val_main_v76,
    rowsCols_121.dotGeneral_apply, rowsCols_121.dotGeneral_apply, bias_idx2]
  have hb : biasRow121 x9 (ix2 0 (i 1)) = x9 (ix1 (i 1)) := biasRow121_apply x9 (i 1)
  show max ((_ + _) + _) (Ideal.ofBits .f32 0x00000000#32) = max ((_ + _) + biasRow121 x9 (ix2 0 (i 1))) 0
  rw [hb, Ideal.ofBits_zero_f32, add_bias_comm]
  rfl

/-- The reference spells the logistic function 1 / (1 + exp (−y)), both ones the pattern of 1.0. -/
theorem logistic_form (y : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf y)))
      = Ideal.logistic y := by
  simp only [Ideal.hostDivf_def, Ideal.addf_def, Ideal.hostUnary_exp_def, Ideal.hostNegf_def, Ideal.negf_def,
    Ideal.ofBits_def, Ideal.ofBits_one_f32]
  rfl

/-- The program's result is the last layer (rectified, then logistic) of the third aggregation and the second
    layer's output. -/
theorem layer2_eq (x0 : (⟨S50000x256, .f32⟩ : BufTy).Contents (Elt Ideal)) (x1 : (⟨S2x400000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256x121, .f32⟩ : BufTy).Contents (Elt Ideal)) (x9 : (⟨S121, .f32⟩ : BufTy).Contents (Elt Ideal)) (x10 : (⟨S256x121, .f32⟩ : BufTy).Contents (Elt Ideal)) :
    val_main_v84 (F := Ideal) x0 x1 x2 x3 x4 x5 x6 x7 x8 x9 x10
      = layerSig (val_main_v71 (F := Ideal) x0 x1 x2 x3 x4 x5 x6 x7) (val_main_v59 (F := Ideal) x0 x1 x2 x3 x4 x5 x6 x7) x8 x10 (biasRow121 x9) := by
  funext i
  rw [val_main_v84_apply, val_main_v83_apply, val_main_cst_14_apply, val_main_v82_apply, val_main_v81_apply,
    val_main_cst_13_apply, val_main_v80_apply, val_main_v79_apply, logistic_form, relu2_apply]
  rfl

end Cert.ReferenceIdeal.Layers

end
-- ==== Proof.FoldA.lean ====
/-
  The idealized program's buffers when its first region is entered, in the reference's stage terms.

  Before the first region the program computes, from the edge list alone, each edge's source row, target row and
  weight (one over the target's clipped degree), and from those and the input features the first aggregation; it
  also lays the first bias out as a row. These are the same operations, in the same order, as the reference's.
-/

import proofs.«122867_j15556371546774_1_alg».proof.Proof.Gen.KernelIdeal.Frame
import proofs.«122867_j15556371546774_1_alg».proof.Proof.Gen.ReferenceIdeal.Read
import proofs.«122867_j15556371546774_1_alg».proof.Proof.Spec
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.GraphConv
open Cert.ReferenceIdeal.Read (val_main_v3 val_main_v6 val_main_v21 val_main_v33 val_main_v40 val_main_v52 val_main_v59 val_main_v71)

variable (m : (ℓ : Loc nD τ sig) → Buf (Elt Ideal) ℓ) (ρ : Dev nD → PrngReg)

/-- A buffer that no operation of a stretch writes holds after the stretch what it held before. -/
local macro "untouched_by " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (by decide)))

/-! ## After the first stretch: rows, targets and the targets' degrees -/

theorem W1_v3 (c : Dev nD) : W1 m ρ c (Proc.devRef .tc main_v3) = val_main_v3 (F := Ideal) (m ((c.tc : Thread nD τ).loc main_arg1)) := by
  show StableHlo.after hostOps0 (W0 m ρ c) (Proc.devRef .tc main_v3) = _
  dsimp only [hostOps0]
  after_results
  rfl

theorem W1_v6 (c : Dev nD) : W1 m ρ c (Proc.devRef .tc main_v6) = val_main_v6 (F := Ideal) (m ((c.tc : Thread nD τ).loc main_arg1)) := by
  show StableHlo.after hostOps0 (W0 m ρ c) (Proc.devRef .tc main_v6) = _
  dsimp only [hostOps0]
  after_results
  rfl

theorem W1_v10 (c : Dev nD) : W1 m ρ c (Proc.devRef .tc main_v10) = Cert.ReferenceIdeal.Read.val_main_v10 (F := Ideal) (m ((c.tc : Thread nD τ).loc main_arg1)) := by
  show StableHlo.after hostOps0 (W0 m ρ c) (Proc.devRef .tc main_v10) = _
  dsimp only [hostOps0]
  after_results
  rfl

theorem W1_cst_1 (c : Dev nD) : W1 m ρ c (Proc.devRef .tc main_cst_1) = Cert.ReferenceIdeal.Read.val_main_cst_1 (F := Ideal) := by
  show StableHlo.after hostOps0 (W0 m ρ c) (Proc.devRef .tc main_cst_1) = _
  dsimp only [hostOps0]
  after_results
  rfl

/-! ## After the clip: the clipped degrees; rows and targets carried -/

theorem W2_v11 (c : Dev nD) : W2 m ρ c (Proc.devRef .tc main_v11) = Cert.ReferenceIdeal.Read.val_main_v11 (F := Ideal) (m ((c.tc : Thread nD τ).loc main_arg1)) := by
  show StableHlo.after hostOps0_1 (W1 m ρ c) (Proc.devRef .tc main_v11) = _
  generalize hV : W1 m ρ c = V
  dsimp only [hostOps0_1]
  after_results
  subst hV
  rw [W1_cst_1, W1_v10]
  rfl

theorem W2_v3 (c : Dev nD) : W2 m ρ c (Proc.devRef .tc main_v3) = val_main_v3 (F := Ideal) (m ((c.tc : Thread nD τ).loc main_arg1)) := by
  refine Eq.trans ?_ (W1_v3 m ρ c)
  untouched_by hostOps0_1

theorem W2_v6 (c : Dev nD) : W2 m ρ c (Proc.devRef .tc main_v6) = val_main_v6 (F := Ideal) (m ((c.tc : Thread nD τ).loc main_arg1)) := by
  refine Eq.trans ?_ (W1_v6 m ρ c)
  untouched_by hostOps0_1

/-! ## The arguments: no host operation writes one -/

theorem W2_arg0 (c : Dev nD) : W2 m ρ c (Proc.devRef .tc main_arg0) = m ((c.tc : Thread nD τ).loc main_arg0) := by
  refine Eq.trans (b := W1 m ρ c (Proc.devRef .tc main_arg0)) ?_ (Eq.trans (b := W0 m ρ c (Proc.devRef .tc main_arg0)) ?_ rfl)
  · untouched_by hostOps0_1
  · untouched_by hostOps0

theorem W2_arg2 (c : Dev nD) : W2 m ρ c (Proc.devRef .tc main_arg2) = m ((c.tc : Thread nD τ).loc main_arg2) := by
  refine Eq.trans (b := W1 m ρ c (Proc.devRef .tc main_arg2)) ?_ (Eq.trans (b := W0 m ρ c (Proc.devRef .tc main_arg2)) ?_ rfl)
  · untouched_by hostOps0_1
  · untouched_by hostOps0

theorem W2_arg3 (c : Dev nD) : W2 m ρ c (Proc.devRef .tc main_arg3) = m ((c.tc : Thread nD τ).loc main_arg3) := by
  refine Eq.trans (b := W1 m ρ c (Proc.devRef .tc main_arg3)) ?_ (Eq.trans (b := W0 m ρ c (Proc.devRef .tc main_arg3)) ?_ rfl)
  · untouched_by hostOps0_1
  · untouched_by hostOps0

theorem W2_arg4 (c : Dev nD) : W2 m ρ c (Proc.devRef .tc main_arg4) = m ((c.tc : Thread nD τ).loc main_arg4) := by
  refine Eq.trans (b := W1 m ρ c (Proc.devRef .tc main_arg4)) ?_ (Eq.trans (b := W0 m ρ c (Proc.devRef .tc main_arg4)) ?_ rfl)
  · untouched_by hostOps0_1
  · untouched_by hostOps0

/-! ## At the first region's entry -/

/-- The edges' source rows (the edge list's first row, then the self loops). -/
theorem W3_v3 (c : Dev nD) : W3 m ρ c (Proc.devRef .tc main_v3) = val_main_v3 (F := Ideal) (m ((c.tc : Thread nD τ).loc main_arg1)) := by
  refine Eq.trans ?_ (W2_v3 m ρ c)
  untouched_by hostOps0_2

/-- The edges' target rows. -/
theorem W3_v6 (c : Dev nD) : W3 m ρ c (Proc.devRef .tc main_v6) = val_main_v6 (F := Ideal) (m ((c.tc : Thread nD τ).loc main_arg1)) := by
  refine Eq.trans ?_ (W2_v6 m ρ c)
  untouched_by hostOps0_2

/-- The edges' weights, as a column: one over the clipped degree, read at each edge's (wrapped) target. -/
theorem W3_v21 (c : Dev nD) : W3 m ρ c (Proc.devRef .tc main_v21) = val_main_v21 (F := Ideal) (m ((c.tc : Thread nD τ).loc main_arg1)) := by
  show StableHlo.after hostOps0_2 (W2 m ρ c) (Proc.devRef .tc main_v21) = _
  generalize hV : W2 m ρ c = V
  dsimp only [hostOps0_2]
  after_results_simp
  subst hV
  rw [W2_v11, W2_v6]
  rfl

/-- The first aggregation: every edge's source row of the features, scaled by the edge's weight, summed into the
    edge's target row. -/
theorem W3_v33 (c : Dev nD) : W3 m ρ c (Proc.devRef .tc main_v33) = val_main_v33 (F := Ideal) (m ((c.tc : Thread nD τ).loc main_arg0)) (m ((c.tc : Thread nD τ).loc main_arg1)) := by
  show StableHlo.after hostOps0_2 (W2 m ρ c) (Proc.devRef .tc main_v33) = _
  generalize hV : W2 m ρ c = V
  dsimp only [hostOps0_2]
  after_results_simp
  subst hV
  rw [W2_v11, W2_v6, W2_v3, W2_arg0]
  rfl

/-- The first bias as a row. -/
theorem W3_v34 (c : Dev nD) : W3 m ρ c (Proc.devRef .tc main_v34) = biasRow256 (m ((c.tc : Thread nD τ).loc main_arg3)) := by
  show StableHlo.after hostOps0_2 (W2 m ρ c) (Proc.devRef .tc main_v34) = _
  generalize hV : W2 m ρ c = V
  dsimp only [hostOps0_2]
  after_results
  subst hV
  rw [W2_arg3]
  rfl

/-- The arguments the first region reads are as launched. -/
theorem W3_arg0 (c : Dev nD) : W3 m ρ c (Proc.devRef .tc main_arg0) = (m ((c.tc : Thread nD τ).loc main_arg0)) := by
  refine Eq.trans ?_ (W2_arg0 m ρ c)
  untouched_by hostOps0_2
theorem W3_arg2 (c : Dev nD) : W3 m ρ c (Proc.devRef .tc main_arg2) = (m ((c.tc : Thread nD τ).loc main_arg2)) := by
  refine Eq.trans ?_ (W2_arg2 m ρ c)
  untouched_by hostOps0_2
theorem W3_arg4 (c : Dev nD) : W3 m ρ c (Proc.devRef .tc main_arg4) = (m ((c.tc : Thread nD τ).loc main_arg4)) := by
  refine Eq.trans ?_ (W2_arg4 m ρ c)
  untouched_by hostOps0_2

end Cert.KernelIdeal.Fold

end
-- ==== Proof.FoldB.lean ====
/-
  The idealized program's buffers when its second region is entered.

  The first region writes only its output array; the stretch after it gathers that output along the edges' source
  rows, scales by the weights, sums into the target rows (the second aggregation), and lays the second bias out as
  a row. Rows, targets and weights are still what the first stretch computed.
-/
import proofs.«122867_j15556371546774_1_alg».proof.Proof.FoldA
import proofs.«122867_j15556371546774_1_alg».proof.Proof.Gen.KernelIdeal.Frame
import proofs.«122867_j15556371546774_1_alg».proof.Proof.Gen.ReferenceIdeal.Read
import proofs.«122867_j15556371546774_1_alg».proof.Proof.Spec
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.GraphConv
open Cert.ReferenceIdeal.Read (val_main_v3 val_main_v6 val_main_v21 val_main_v33 val_main_v40 val_main_v52 val_main_v59 val_main_v71)

variable (m : (ℓ : Loc nD τ sig) → Buf (Elt Ideal) ℓ) (ρ : Dev nD → PrngReg)

/-- A buffer that no operation of a stretch writes holds after the stretch what it held before: the stretch's written
    buffers are listed one by one, and each differs from the buffer read. -/
local macro "untouched_by " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (by decide)))

/-! ## The first region writes only its output array -/

theorem W4_v3 (c : Dev nD) : W4 m ρ c (Proc.devRef .tc main_v3) = val_main_v3 (F := Ideal) (m ((c.tc : Thread nD τ).loc main_arg1)) :=
  (W4_of_ne m ρ c main_v3 (by decide)).trans (W3_v3 m ρ c)
theorem W4_v6 (c : Dev nD) : W4 m ρ c (Proc.devRef .tc main_v6) = val_main_v6 (F := Ideal) (m ((c.tc : Thread nD τ).loc main_arg1)) :=
  (W4_of_ne m ρ c main_v6 (by decide)).trans (W3_v6 m ρ c)
theorem W4_v21 (c : Dev nD) : W4 m ρ c (Proc.devRef .tc main_v21) = val_main_v21 (F := Ideal) (m ((c.tc : Thread nD τ).loc main_arg1)) :=
  (W4_of_ne m ρ c main_v21 (by decide)).trans (W3_v21 m ρ c)

/-- The launch memory at an argument that neither a host operation before the first region nor that region writes. -/
theorem W4_arg5 (c : Dev nD) : W4 m ρ c (Proc.devRef .tc main_arg5) = m ((c.tc : Thread nD τ).loc main_arg5) := by
  refine (W4_of_ne m ρ c main_arg5 (by decide)).trans ?_
  refine Eq.trans (b := W2 m ρ c (Proc.devRef .tc main_arg5)) ?_ (Eq.trans (b := W1 m ρ c (Proc.devRef .tc main_arg5)) ?_ (Eq.trans (b := W0 m ρ c (Proc.devRef .tc main_arg5)) ?_ rfl))
  · untouched_by hostOps0_2
  · untouched_by hostOps0_1
  · untouched_by hostOps0
theorem W4_arg6 (c : Dev nD) : W4 m ρ c (Proc.devRef .tc main_arg6) = m ((c.tc : Thread nD τ).loc main_arg6) := by
  refine (W4_of_ne m ρ c main_arg6 (by decide)).trans ?_
  refine Eq.trans (b := W2 m ρ c (Proc.devRef .tc main_arg6)) ?_ (Eq.trans (b := W1 m ρ c (Proc.devRef .tc main_arg6)) ?_ (Eq.trans (b := W0 m ρ c (Proc.devRef .tc main_arg6)) ?_ rfl))
  · untouched_by hostOps0_2
  · untouched_by hostOps0_1
  · untouched_by hostOps0
theorem W4_arg7 (c : Dev nD) : W4 m ρ c (Proc.devRef .tc main_arg7) = m ((c.tc : Thread nD τ).loc main_arg7) := by
  refine (W4_of_ne m ρ c main_arg7 (by decide)).trans ?_
  refine Eq.trans (b := W2 m ρ c (Proc.devRef .tc main_arg7)) ?_ (Eq.trans (b := W1 m ρ c (Proc.devRef .tc main_arg7)) ?_ (Eq.trans (b := W0 m ρ c (Proc.devRef .tc main_arg7)) ?_ rfl))
  · untouched_by hostOps0_2
  · untouched_by hostOps0_1
  · untouched_by hostOps0

/-! ## At the second region's entry -/

/-- Rows, targets and weights are untouched by the first region and the stretch after it. -/
theorem W5_v3 (c : Dev nD) : W5 m ρ c (Proc.devRef .tc main_v3) = val_main_v3 (F := Ideal) (m ((c.tc : Thread nD τ).loc main_arg1)) := by
  refine Eq.trans ?_ (W4_v3 m ρ c)
  untouched_by hostOps1
theorem W5_v6 (c : Dev nD) : W5 m ρ c (Proc.devRef .tc main_v6) = val_main_v6 (F := Ideal) (m ((c.tc : Thread nD τ).loc main_arg1)) := by
  refine Eq.trans ?_ (W4_v6 m ρ c)
  untouched_by hostOps1
theorem W5_v21 (c : Dev nD) : W5 m ρ c (Proc.devRef .tc main_v21) = val_main_v21 (F := Ideal) (m ((c.tc : Thread nD τ).loc main_arg1)) := by
  refine Eq.trans ?_ (W4_v21 m ρ c)
  untouched_by hostOps1

/-- The first region's output is untouched by the stretch after it. -/
theorem W5_v35 (c : Dev nD) : W5 m ρ c (Proc.devRef .tc main_v35) = W4 m ρ c (Proc.devRef .tc main_v35) := by
  untouched_by hostOps1

/-- The second aggregation, given the first layer's output. -/
theorem W5_v47 (c : Dev nD)
    (h : W4 m ρ c (Proc.devRef .tc main_v35) = val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    W5 m ρ c (Proc.devRef .tc main_v47) = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  -- the stretch's operations, read from the first region's exit contents: the gather of the first layer's output
  -- along the wrapped source rows, times the broadcast weights, summed into the target rows of a zero array
  show StableHlo.after hostOps1 (W4 m ρ c) (Proc.devRef .tc main_v47) = _
  generalize hV : W4 m ρ c = V at h
  dsimp only [hostOps1]
  after_results_simp
  subst hV
  rw [h, W4_v3, W4_v6, W4_v21]
  rfl

/-- The second bias as a row. -/
theorem W5_v48 (c : Dev nD) : W5 m ρ c (Proc.devRef .tc main_v48) = biasRow256 (m ((c.tc : Thread nD τ).loc main_arg6)) := by
  show StableHlo.after hostOps1 (W4 m ρ c) (Proc.devRef .tc main_v48) = _
  generalize hV : W4 m ρ c = V
  dsimp only [hostOps1]
  after_results
  subst hV
  rw [W4_arg6]
  rfl

/-- The arguments the second region reads are as launched. -/
theorem W5_arg5 (c : Dev nD) : W5 m ρ c (Proc.devRef .tc main_arg5) = (m ((c.tc : Thread nD τ).loc main_arg5)) := by
  refine Eq.trans ?_ (W4_arg5 m ρ c)
  untouched_by hostOps1
theorem W5_arg7 (c : Dev nD) : W5 m ρ c (Proc.devRef .tc main_arg7) = (m ((c.tc : Thread nD τ).loc main_arg7)) := by
  refine Eq.trans ?_ (W4_arg7 m ρ c)
  untouched_by hostOps1

end Cert.KernelIdeal.Fold

end
-- ==== Proof.FoldC.lean ====
/-
  The idealized program's buffers when its third region is entered: the third aggregation of the second layer's
  output, the third bias as a row, the last two weight matrices as launched.
-/
import proofs.«122867_j15556371546774_1_alg».proof.Proof.FoldB
import proofs.«122867_j15556371546774_1_alg».proof.Proof.Gen.KernelIdeal.Frame
import proofs.«122867_j15556371546774_1_alg».proof.Proof.Gen.ReferenceIdeal.Read
import proofs.«122867_j15556371546774_1_alg».proof.Proof.Spec
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.GraphConv
open Cert.ReferenceIdeal.Read (val_main_v3 val_main_v6 val_main_v21 val_main_v33 val_main_v40 val_main_v52 val_main_v59 val_main_v71)

variable (m : (ℓ : Loc nD τ sig) → Buf (Elt Ideal) ℓ) (ρ : Dev nD → PrngReg)

/-- The second region's output is untouched by the stretch after it. -/
theorem W7_v49 (c : Dev nD) : W7 m ρ c (Proc.devRef .tc main_v49) = W6 m ρ c (Proc.devRef .tc main_v49) :=
  StableHlo.after_of_forall_not_mem (b := Proc.devRef .tc main_v49) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)))

/-- Rows, targets and weights are untouched by the second region. -/
theorem W6_v3 (c : Dev nD) : W6 m ρ c (Proc.devRef .tc main_v3) = val_main_v3 (F := Ideal) (m ((c.tc : Thread nD τ).loc main_arg1)) :=
  (W6_of_ne m ρ c main_v3 (by decide)).trans (W5_v3 m ρ c)
theorem W6_v6 (c : Dev nD) : W6 m ρ c (Proc.devRef .tc main_v6) = val_main_v6 (F := Ideal) (m ((c.tc : Thread nD τ).loc main_arg1)) :=
  (W6_of_ne m ρ c main_v6 (by decide)).trans (W5_v6 m ρ c)
theorem W6_v21 (c : Dev nD) : W6 m ρ c (Proc.devRef .tc main_v21) = val_main_v21 (F := Ideal) (m ((c.tc : Thread nD τ).loc main_arg1)) :=
  (W6_of_ne m ρ c main_v21 (by decide)).trans (W5_v21 m ρ c)

/-- The third aggregation, given the second layer's output: the stretch gathers that output along the edges' wrapped
    source rows, scales each gathered row by its edge's weight, and sums into the target rows from zero — the
    reference's operations on the reference's rows, targets and weights. -/
theorem W7_v61 (c : Dev nD)
    (h : W6 m ρ c (Proc.devRef .tc main_v49) = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :
    W7 m ρ c (Proc.devRef .tc main_v61) = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps2 (W6 m ρ c) (Proc.devRef .tc main_v61) = _
  have e3 := W6_v3 m ρ c
  have e6 := W6_v6 m ρ c
  have e21 := W6_v21 m ρ c
  generalize hV : W6 m ρ c = V at h e3 e6 e21 ⊢
  dsimp only [hostOps2]
  after_results_simp
  rw [h, e3, e6, e21]
  rfl

/-- The third bias vector is written neither by the stretch before the third region nor by that region, and read
    through the whole run it is as launched. -/
theorem W6_arg9 (c : Dev nD) : W6 m ρ c (Proc.devRef .tc main_arg9) = m ((c.tc : Thread nD τ).loc main_arg9) :=
  calc W6 m ρ c (Proc.devRef .tc main_arg9)
    _ = W7 m ρ c (Proc.devRef .tc main_arg9) := (StableHlo.after_of_forall_not_mem (b := Proc.devRef .tc main_arg9) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)))).symm
    _ = W8 m ρ c (Proc.devRef .tc main_arg9) := (W8_of_ne m ρ c main_arg9 (by decide)).symm
    _ = m ((c.tc : Thread nD τ).loc main_arg9) := W8_main_arg9 m ρ c

/-- The third bias as a row. -/
theorem W7_v62 (c : Dev nD) : W7 m ρ c (Proc.devRef .tc main_v62) = biasRow121 (m ((c.tc : Thread nD τ).loc main_arg9)) := by
  show StableHlo.after hostOps2 (W6 m ρ c) (Proc.devRef .tc main_v62) = _
  rw [← W6_arg9 m ρ c]
  generalize hV : W6 m ρ c = V
  dsimp only [hostOps2]
  after_results
  rfl

/-- The arguments the third region reads are as launched: the region leaves its input arrays as it found them, and
    read through the whole run each is what was launched. -/
theorem W7_arg8 (c : Dev nD) : W7 m ρ c (Proc.devRef .tc main_arg8) = (m ((c.tc : Thread nD τ).loc main_arg8)) :=
  ((W8_arr m ρ c 2).trans (((dat2 (V7 m ρ) c).arrAt_in 2 rfl _).trans (A_eq2 (V7 m ρ) c 2))).symm.trans
    (W8_main_arg8 m ρ c)
theorem W7_arg10 (c : Dev nD) : W7 m ρ c (Proc.devRef .tc main_arg10) = (m ((c.tc : Thread nD τ).loc main_arg10)) :=
  ((W8_arr m ρ c 3).trans (((dat2 (V7 m ρ) c).arrAt_in 3 rfl _).trans (A_eq2 (V7 m ρ) c 3))).symm.trans
    (W8_main_arg10 m ρ c)

end Cert.KernelIdeal.Fold

end
-- ==== Proof.KValue.lean ====
/-
  The idealized program's result array, in the reference's stage terms.

  Layer by layer: a region's output array is the layer's function of the arrays it was entered with; those arrays
  are, by the host operations before the region, the reference's aggregation stage, the previous layer's stage, the
  weight matrices as launched and the bias laid out as a row; and the layer's function of those is the reference's
  next layer stage. Three times over, the last region's output — the program's result — is the reference's result
  stage of the arguments as launched.
-/
import proofs.«122867_j15556371546774_1_alg».proof.Proof.Region0
import proofs.«122867_j15556371546774_1_alg».proof.Proof.Region1
import proofs.«122867_j15556371546774_1_alg».proof.Proof.Region2
import proofs.«122867_j15556371546774_1_alg».proof.Proof.RefLayers
import proofs.«122867_j15556371546774_1_alg».proof.Proof.FoldC

set_option maxRecDepth 16384

noncomputable section

namespace Cert.KernelIdeal.Result

open Idealize.ShloMosaic Idealize.ShloMosaic.TcCoe Idealize.SL.Sem
open Cert.KernelIdeal Cert.KernelIdeal.Gen Cert.GraphConv Cert.KernelIdeal.Fold
open Cert.ReferenceIdeal.Read (val_main_v33 val_main_v40 val_main_v52 val_main_v59 val_main_v71 val_main_v84)
open Cert.ReferenceIdeal.Layers (layer0_eq layer1_eq layer2_eq)

variable (m : (ℓ : Loc nD τ sig) → Buf (Elt Ideal) ℓ) (ρ : Dev nD → PrngReg)

/-- After the first region its output array is the reference's first layer stage. -/
theorem first_layer (c : Dev nD) :
    W4 m ρ c (Proc.devRef .tc main_v35) = val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W4_arr m ρ c 5).trans ?_
  refine (Region0.out_eq (V3 m ρ) c).trans ?_
  show layerRelu (W3 m ρ c (Proc.devRef .tc main_v33)) (W3 m ρ c (Proc.devRef .tc main_arg0))
    (W3 m ρ c (Proc.devRef .tc main_arg2)) (W3 m ρ c (Proc.devRef .tc main_arg4)) (W3 m ρ c (Proc.devRef .tc main_v34)) = _
  rw [W3_v33, W3_arg0, W3_arg2, W3_arg4, W3_v34]
  exact (layer0_eq _ _ _ _ _).symm

/-- After the second region its output array is the reference's second layer stage. -/
theorem second_layer (c : Dev nD) :
    W6 m ρ c (Proc.devRef .tc main_v49) = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W6_arr m ρ c 5).trans ?_
  refine (Region1.out_eq (V5 m ρ) c).trans ?_
  show layerRelu (W5 m ρ c (Proc.devRef .tc main_v47)) (W5 m ρ c (Proc.devRef .tc main_v35))
    (W5 m ρ c (Proc.devRef .tc main_arg5)) (W5 m ρ c (Proc.devRef .tc main_arg7)) (W5 m ρ c (Proc.devRef .tc main_v48)) = _
  rw [W5_v47 m ρ c (first_layer m ρ c), W5_v35, first_layer, W5_arg5, W5_arg7, W5_v48]
  exact (layer1_eq _ _ _ _ _ _ _ _).symm

/-- After the third region the result array is the reference's result stage. -/
theorem result (c : Dev nD) :
    W8 m ρ c (Proc.devRef .tc main_v63) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W8_arr m ρ c 5).trans ?_
  refine (Region2.out_eq (V7 m ρ) c).trans ?_
  show layerSig (W7 m ρ c (Proc.devRef .tc main_v61)) (W7 m ρ c (Proc.devRef .tc main_v49))
    (W7 m ρ c (Proc.devRef .tc main_arg8)) (W7 m ρ c (Proc.devRef .tc main_arg10)) (W7 m ρ c (Proc.devRef .tc main_v62)) = _
  rw [W7_v61 m ρ c (second_layer m ρ c), W7_v49, second_layer, W7_arg8, W7_arg10, W7_v62]
  exact (layer2_eq _ _ _ _ _ _ _ _ _ _ _).symm

end Cert.KernelIdeal.Result

end
-- ==== Proof.lean ====
/-
  The certificate of a three-layer graph convolution: each layer aggregates every node's neighbours' features
  (weighted by one over the target's clipped degree), multiplies the aggregate and the node's own features by two
  weight matrices, adds a bias and rectifies; the last layer ends in the logistic function.

  The kernel program computes each layer's dense part in a pipelined region, ten blocks of 5000 rows, adding the
  bias after both products; the reference computes it with whole-array products, adding the bias between them. Over
  the extended reals both are the same function of the arguments, entry by entry: a row of a product depends only on
  the same row of its left operand, and addition is commutative and associative. The aggregations are the same host
  operations in both programs.

  The frames of the two kernel programs are the generated ones; the reference's frame is its generated run with the
  result dropped; the idealization changes nothing that has to be preserved; and the algebraic claim pairs the kernel
  program's run, its result named (KRun), with the reference's run at the common value (KValue).
-/
import proofs.«122867_j15556371546774_1_alg».proof.Defs
import proofs.«122867_j15556371546774_1_alg».proof.Proof.Gen.Kernel
import proofs.«122867_j15556371546774_1_alg».proof.Proof.Gen.Kernel.Skeleton
import proofs.«122867_j15556371546774_1_alg».proof.Proof.Gen.Kernel.Launch
import proofs.«122867_j15556371546774_1_alg».proof.Proof.Gen.Kernel.Points
import proofs.«122867_j15556371546774_1_alg».proof.Proof.Gen.Kernel.Frame
import proofs.«122867_j15556371546774_1_alg».proof.Proof.Gen.KernelIdeal
import proofs.«122867_j15556371546774_1_alg».proof.Proof.Gen.KernelIdeal.Skeleton
import proofs.«122867_j15556371546774_1_alg».proof.Proof.Gen.KernelIdeal.Launch
import proofs.«122867_j15556371546774_1_alg».proof.Proof.Gen.KernelIdeal.Points
import proofs.«122867_j15556371546774_1_alg».proof.Proof.Gen.KernelIdeal.Frame
import proofs.«122867_j15556371546774_1_alg».proof.Proof.Gen.ReferenceIdeal
import proofs.«122867_j15556371546774_1_alg».proof.Proof.Gen.ReferenceIdeal.Run
import proofs.«122867_j15556371546774_1_alg».proof.Proof.Gen.ReferenceIdeal.Read
import proofs.«122867_j15556371546774_1_alg».proof.Proof.Gen.Pre_finite_inputs
import proofs.«122867_j15556371546774_1_alg».proof.Proof.KRun
import proofs.«122867_j15556371546774_1_alg».proof.Proof.KValue
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing whose meaning has to be preserved. -/
theorem preserves : Cert.preserves_Kernel_KernelIdeal := trivial

/-- From memories that agree on the arguments, the kernel program's result array and the reference's both end at
    the reference's result stage of those arguments. -/
theorem algebraic : Cert.algebraic_KernelIdeal_ReferenceIdeal := by
  intro m ρ m' ρ' _ hagree
  refine ⟨fun c => Cert.KernelIdeal.Gen.W8 m ρ c (Proc.devRef .tc Cert.KernelIdeal.main_v63),
    Cert.KernelIdeal.GenRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v84_eq, e0, e1, e2, e3, e4, e5, e6, e7, e8, e9, e10]
  exact (Cert.KernelIdeal.Result.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
